-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x1, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S_, .f32⟩
  | .hbm, ⟨81, _⟩ => ⟨S100000x1, .f32⟩
  | .hbm, ⟨82, _⟩ => ⟨S1700000x1, .i32⟩
  | .hbm, ⟨83, _⟩ => ⟨S100000x1, .f32⟩
  | .hbm, ⟨84, _⟩ => ⟨S1x1, .f32⟩
  | .hbm, ⟨85, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x1, .f32⟩
  | .local _ .vmem, ⟨13, _⟩ => ⟨S10000x1, .f32⟩
  | .local _ .vmem, ⟨14, _⟩ => ⟨S10000x1, .f32⟩
  | .local _ .vmem, ⟨15, _⟩ => ⟨S10000x1, .f32⟩
  | .local _ .vmem, ⟨16, _⟩ => ⟨S10000x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x1_S10000x1_1_0_0_1_n_n_wf : DotDims.WF S10000x128 S128x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S100000x1.size a
  hwx3_0 : ∀ i : grid3.Coords, EltTy.bits .f32 = 32 ∨ (Rect.block (s := S100000x1) S10000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x1, .f32⟩
  | 6 => ⟨S1, .f32⟩
  | 7 => ⟨S100000x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .i1⟩
  | 72 => ⟨S_, .f32⟩
  | 73 => ⟨S100000x128, .f32⟩
  | 74 => ⟨S100000x128, .i1⟩
  | 75 => ⟨S_, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x1, .f32⟩
  | 85 => ⟨S100000, .i32⟩
  | 86 => ⟨S1x1600000, .i32⟩
  | 87 => ⟨S1600000, .i32⟩
  | 88 => ⟨S1700000, .i32⟩
  | 89 => ⟨S1x1600000, .i32⟩
  | 90 => ⟨S1600000, .i32⟩
  | 91 => ⟨S1700000, .i32⟩
  | 92 => ⟨S_, .f32⟩
  | 93 => ⟨S100000, .f32⟩
  | 94 => ⟨S1700000, .f32⟩
  | 95 => ⟨S_, .f32⟩
  | 96 => ⟨S100000, .f32⟩
  | 97 => ⟨S1700000x1, .i32⟩
  | 98 => ⟨S100000, .f32⟩
  | 99 => ⟨S_, .f32⟩
  | 100 => ⟨S100000, .f32⟩
  | 101 => ⟨S100000, .i1⟩
  | 102 => ⟨S100000, .f32⟩
  | 103 => ⟨S_, .f32⟩
  | 104 => ⟨S_, .f32⟩
  | 105 => ⟨S100000, .f32⟩
  | 106 => ⟨S100000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S1700000, .f32⟩
  | 127 => ⟨S1700000x1, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x1, .f32⟩
  | 9 => ⟨S1700000x1, .f32⟩
  | 10 => ⟨S_, .f32⟩
  | 11 => ⟨S100000x1, .f32⟩
  | 12 => ⟨S1700000x1, .i32⟩
  | 13 => ⟨S100000x1, .f32⟩
  | 14 => ⟨S1x1, .f32⟩
  | 15 => ⟨S100000x1, .f32⟩
  | 16 => ⟨S100000x1, .f32⟩
  | 17 => ⟨S100000x1, .f32⟩
  | 18 => ⟨S100000x1, .f32⟩
  | 19 => ⟨S_, .f32⟩
  | 20 => ⟨S100000x1, .f32⟩
  | 21 => ⟨S100000x1, .f32⟩
  | 22 => ⟨S_, .f32⟩
  | 23 => ⟨S100000x1, .f32⟩
  | 24 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_cst_1 : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_v4 : Ref sig .tc := ⟨.hbm, 78, rfl⟩
abbrev main_call1_v5 : Ref sig .tc := ⟨.hbm, 79, rfl⟩
abbrev main_call1_cst_2 : Ref sig .tc := ⟨.hbm, 80, rfl⟩
abbrev main_call1_v6 : Ref sig .tc := ⟨.hbm, 81, rfl⟩
abbrev main_call1_v7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_call2_v0 : Ref sig .tc := ⟨.hbm, 104, rfl⟩
abbrev main_call2_v1 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_c_14 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_15 : Ref sig .tc := ⟨.hbm, 117, rfl⟩
abbrev main_v75 : Ref sig .tc := ⟨.hbm, 118, rfl⟩
abbrev main_v76 : Ref sig .tc := ⟨.hbm, 119, rfl⟩
abbrev main_c_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_17 : Ref sig .tc := ⟨.hbm, 128, rfl⟩
abbrev main_v84 : Ref sig .tc := ⟨.hbm, 129, rfl⟩
abbrev main_v85 : Ref sig .tc := ⟨.hbm, 130, rfl⟩
abbrev main_c_18 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_20 : Ref sig .tc := ⟨.hbm, 147, rfl⟩
abbrev main_v100 : Ref sig .tc := ⟨.hbm, 148, rfl⟩
abbrev main_v101 : Ref sig .tc := ⟨.hbm, 149, rfl⟩
abbrev main_cst_21 : Ref sig .tc := ⟨.hbm, 150, rfl⟩
abbrev main_v102 : Ref sig .tc := ⟨.hbm, 151, rfl⟩
abbrev main_v103 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Spec.lean ====
/-
  The mathematics of the two-layer graph convolution, one function per stage that the kernel program and the
  reference spell differently.

  A dense layer is the matrix product: entry (r, c) is the sum over the inner index k of A (r, k) * B (k, c).
  The first activation adds a bias row to every row and applies ELU: z where z > 0, otherwise exp z - 1.
  The second adds a bias row and applies the logistic function written 1 / (1 + exp (0 - z)).
  All values are extended reals; no law used here needs finiteness.
-/
import Idealize.ShloMosaic.Lib.ValueIdx
import Idealize.ShloMosaic.PureOps.Ideal.Laws

noncomputable section

namespace Cert.Gcn

open Idealize.ShloMosaic Idealize.ShloMosaic.ValueIdx

variable {M K N : Nat}

/-- The matrix product of `A` (M rows, K columns) and `B` (K rows, N columns), entry by entry. -/
def matProd (A : FVec Ideal (⟨2, ![M, K]⟩ : Shape) .f32) (B : FVec Ideal (⟨2, ![K, N]⟩ : Shape) .f32) :
    FVec Ideal (⟨2, ![M, N]⟩ : Shape) .f32 :=
  fun j => ∑ k : Fin K, A (ix2 (j 0) k) * B (ix2 k (j 1))

/-- ELU of one value: the value itself where it is greater than zero, else its exponential minus one. -/
def eluPt (z : Ideal .f32) : Ideal .f32 :=
  Scalar.select (FloatOps.cmpf .ogt z (Scalar.ofBits .f32 0x00000000#32)) z
    (FloatOps.subf (FloatOps.exp z) (Scalar.ofBits .f32 0x3F800000#32))

/-- The logistic function of one value, written as one over one plus the exponential of zero minus the value. -/
def sigPt (z : Ideal .f32) : Ideal .f32 :=
  FloatOps.divf (Scalar.ofBits .f32 0x3F800000#32)
    (FloatOps.addf (Scalar.ofBits .f32 0x3F800000#32)
      (FloatOps.exp (FloatOps.subf (Scalar.ofBits .f32 0x00000000#32) z)))

/-- Add the one-row array `b` to every row of `a`, then ELU entry by entry. -/
def eluRow (a : FVec Ideal (⟨2, ![M, N]⟩ : Shape) .f32) (b : FVec Ideal (⟨2, ![1, N]⟩ : Shape) .f32) :
    FVec Ideal (⟨2, ![M, N]⟩ : Shape) .f32 :=
  fun j => eluPt (FloatOps.addf (a j) (b (ix2 (0 : Fin 1) (j 1))))

/-- Add the one-row array `b` to every row of `a`, then the logistic function entry by entry. -/
def sigRow (a : FVec Ideal (⟨2, ![M, N]⟩ : Shape) .f32) (b : FVec Ideal (⟨2, ![1, N]⟩ : Shape) .f32) :
    FVec Ideal (⟨2, ![M, N]⟩ : Shape) .f32 :=
  fun j => sigPt (FloatOps.addf (a j) (b (ix2 (0 : Fin 1) (j 1))))

end Cert.Gcn

end
-- ==== Proof.KStages.lean ====
/-
  The host stretches of the kernel program, read one stage at a time.

  Between its four kernel regions the program prepares, on the host, the graph's edge lists with one self-loop per
  node appended (sources `rowOf`, targets `colOf`, weights `ewOf`), the weighted in-degree of every node
  (`degOf`: the weights scatter-added at their targets), its inverse square root where the degree is positive and
  zero elsewhere (`dinvOf`), the symmetric normalisation of every edge (`normOf`: inverse root at the source times
  weight times inverse root at the target), and, for a node-feature array `y`, the aggregation that scatter-adds at
  each edge's target the normalised source row of `y` (`agg128` for 128 columns, `agg1` for one). Negative indices
  wrap once by the node count (`wrap`), as the gather's lowering spells it. A bias vector becomes a one-row array
  (`row128`, `row1`). Each lemma says what one stretch leaves in one buffer, as a function of what it found.
-/
import proofs.«160689_j1786706395262_1_alg».proof.Proof.Gen.KernelIdeal.Frame
import Idealize.ShloMosaic.Lib.StableHlo.Run

set_option maxRecDepth 16384
set_option maxHeartbeats 8000000

noncomputable section

namespace Cert.KernelIdeal.KStages

open Cert.KernelIdeal Cert.KernelIdeal.Gen
open Idealize.ShloMosaic Idealize.ShloMosaic.TcCoe Idealize.ShloMosaic.StableHlo Idealize.SL.Sem

variable {F : FTy → Type} [FloatOps F]

/-! ## The stages -/

/-- Edge sources: row 0 of the edge list, then every node once (the self-loops). -/
def rowOf (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
      ⟨S100000, iotaInDim S100000 32 0⟩]
    concatenates_S1600000_S100000_S1700000_d0

/-- Edge targets: row 1 of the edge list, then every node once. -/
def colOf (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
      ⟨S100000, iotaInDim S100000 32 0⟩]
    concatenates_S1600000_S100000_S1700000_d0

/-- A negative index wraps once by the number of nodes. -/
def wrap (r : IVec S1700000 32) : IVec S1700000 32 :=
  select (cmpi .slt r (broadcastInDim S1700000 ![] bcast_S_S1700000 (constantI S_ 32 0#32)))
    (addi r (broadcastInDim S1700000 ![] bcast_S_S1700000 (constantI S_ 32 100000#32))) r

/-- An index vector as a one-column index array. -/
def col2 (r : IVec S1700000 32) : IVec S1700000x1 32 :=
  broadcastInDim S1700000x1 ![0] bcast_S1700000_S1700000x1_0 r

/-- Edge weights, then weight one for every self-loop. -/
def ewOf (w : FVec F S1600000 .f32) : FVec F S1700000 .f32 :=
  concatenate S1700000 0
    [⟨S1600000, w⟩, ⟨S100000, broadcastInDim S100000 ![] bcast_S_S100000 (constant S_ .f32 0x3F800000#32)⟩]
    concatenates_S1600000_S100000_S1700000_d0

/-- Weighted in-degree: the weights summed at their targets. -/
def degOf (ei : IVec S2x1600000 32) (w : FVec F S1600000 .f32) : FVec F S100000 .f32 :=
  Host.scatterAdd scatter_S100000_S1700000x1_S1700000_n_0_0_1
    (broadcastInDim S100000 ![] bcast_S_S100000 (constant S_ .f32 0x00000000#32)) (col2 (colOf ei)) (ewOf w)

/-- The select that keeps `r` where the bit is set and the scalar `z` elsewhere. -/
def pick (p : IVec S100000 1) (r : FVec F S100000 .f32) (z : FVec F S_ .f32) : FVec F S100000 .f32 :=
  select p r (broadcastInDim S100000 ![] bcast_S_S100000 (id z))

/-- Inverse square root of the degree where it is positive, zero elsewhere. -/
def dinvOf (ei : IVec S2x1600000 32) (w : FVec F S1600000 .f32) : FVec F S100000 .f32 :=
  pick (cmpf .ogt (degOf ei w) (broadcastInDim S100000 ![] bcast_S_S100000 (constant S_ .f32 0x00000000#32)))
    (Host.rsqrt (degOf ei w)) (constant S_ .f32 0x00000000#32)

/-- Per edge: the node value `d` at the source, times the weight, times `d` at the target. -/
def normFrom (d : FVec F S100000 .f32) (row col : IVec S1700000 32) (ew : FVec F S1700000 .f32) : FVec F S1700000 .f32 :=
  mulf (mulf (Host.gather gather_S100000_S1700000x1_S1700000_n_0_n_n_0_1_1 d (col2 (wrap row))) ew)
    (Host.gather gather_S100000_S1700000x1_S1700000_n_0_n_n_0_1_1 d (col2 (wrap col)))

/-- The symmetric normalisation of every edge. -/
def normOf (ei : IVec S2x1600000 32) (w : FVec F S1600000 .f32) : FVec F S1700000 .f32 :=
  normFrom (dinvOf ei w) (rowOf ei) (colOf ei) (ewOf w)

/-- Scatter-add at each edge's target the edge's coefficient times the source row of `y` (128 columns). -/
def aggFrom128 (y : FVec F S100000x128 .f32) (nrm : FVec F S1700000 .f32) (row col : IVec S1700000 32) : FVec F S100000x128 .f32 :=
  Host.scatterAdd scatter_S100000x128_S1700000x1_S1700000x128_1_0_0_1
    (broadcastInDim S100000x128 ![] bcast_S_S100000x128 (constant S_ .f32 0x00000000#32)) (col2 col)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 y (col2 (wrap row))))

/-- The same with one column. -/
def aggFrom1 (y : FVec F S100000x1 .f32) (nrm : FVec F S1700000 .f32) (row col : IVec S1700000 32) : FVec F S100000x1 .f32 :=
  Host.scatterAdd scatter_S100000x1_S1700000x1_S1700000x1_1_0_0_1
    (broadcastInDim S100000x1 ![] bcast_S_S100000x1 (constant S_ .f32 0x00000000#32)) (col2 col)
    (mulf (broadcastInDim S1700000x1 ![0] bcast_S1700000_S1700000x1_0 nrm)
      (Host.gather gather_S100000x1_S1700000x1_S1700000x1_1_0_n_n_0_1_11 y (col2 (wrap row))))

/-- The normalised aggregation of `y` over the graph (128 columns). -/
def agg128 (y : FVec F S100000x128 .f32) (ei : IVec S2x1600000 32) (w : FVec F S1600000 .f32) : FVec F S100000x128 .f32 :=
  aggFrom128 y (normOf ei w) (rowOf ei) (colOf ei)

/-- The normalised aggregation of `y` over the graph (one column). -/
def agg1 (y : FVec F S100000x1 .f32) (ei : IVec S2x1600000 32) (w : FVec F S1600000 .f32) : FVec F S100000x1 .f32 :=
  aggFrom1 y (normOf ei w) (rowOf ei) (colOf ei)

/-- A vector of 128 entries as a one-row array. -/
def row128 (b : FVec F S128 .f32) : FVec F S1x128 .f32 := shapeCast S1x128 b shapeCasts_S128_S1x128

/-- A vector of one entry as a one-row array. -/
def row1 (b : FVec F S1 .f32) : FVec F S1x1 .f32 := shapeCast S1x1 b shapeCasts_S1_S1x1

/-! ## What each stretch leaves, from any contents `U` it finds -/

variable (U : Valuation τ sig (Elt F))

theorem s0_row : StableHlo.after hostOps0 U (Proc.devRef .tc main_v3) = rowOf (U (Proc.devRef .tc main_arg1)) := by
  simp only [hostOps0]; after_results; rfl
theorem s0_col : StableHlo.after hostOps0 U (Proc.devRef .tc main_v6) = colOf (U (Proc.devRef .tc main_arg1)) := by
  simp only [hostOps0]; after_results; rfl
theorem s0_ew : StableHlo.after hostOps0 U (Proc.devRef .tc main_v8) = ewOf (U (Proc.devRef .tc main_arg2)) := by
  simp only [hostOps0]; after_results; rfl
theorem s0_pos : StableHlo.after hostOps0 U (Proc.devRef .tc main_v13)
    = cmpf .ogt (degOf (U (Proc.devRef .tc main_arg1)) (U (Proc.devRef .tc main_arg2))) (broadcastInDim S100000 ![] bcast_S_S100000 (constant S_ .f32 0x00000000#32)) := by
  simp only [hostOps0]; after_results; rfl
theorem s0_rsqrt : StableHlo.after hostOps0 U (Proc.devRef .tc main_v14)
    = Host.rsqrt (degOf (U (Proc.devRef .tc main_arg1)) (U (Proc.devRef .tc main_arg2))) := by
  simp only [hostOps0]; after_results; rfl
theorem s0_zero : StableHlo.after hostOps0 U (Proc.devRef .tc main_cst_2) = constant S_ .f32 0x00000000#32 := by
  simp only [hostOps0]; after_results

theorem s01_dinv : StableHlo.after hostOps0_1 U (Proc.devRef .tc main_v15)
    = pick (U (Proc.devRef .tc main_v13)) (U (Proc.devRef .tc main_v14)) (U (Proc.devRef .tc main_cst_2)) := by
  simp only [hostOps0_1]; after_results; rfl

theorem s02_norm : StableHlo.after hostOps0_2 U (Proc.devRef .tc main_v31)
    = normFrom (U (Proc.devRef .tc main_v15)) (U (Proc.devRef .tc main_v3)) (U (Proc.devRef .tc main_v6)) (U (Proc.devRef .tc main_v8)) := by
  simp only [hostOps0_2]; after_results; rfl

theorem s1_agg : StableHlo.after hostOps1 U (Proc.devRef .tc main_v45)
    = aggFrom128 (U (Proc.devRef .tc main_v32)) (U (Proc.devRef .tc main_v31)) (U (Proc.devRef .tc main_v3)) (U (Proc.devRef .tc main_v6)) := by
  simp only [hostOps1]; after_results; rfl
theorem s1_bias : StableHlo.after hostOps1 U (Proc.devRef .tc main_v46) = row128 (U (Proc.devRef .tc main_arg4)) := by
  simp only [hostOps1]; after_results; rfl

theorem s3_agg : StableHlo.after hostOps3 U (Proc.devRef .tc main_v60)
    = aggFrom1 (U (Proc.devRef .tc main_v48)) (U (Proc.devRef .tc main_v31)) (U (Proc.devRef .tc main_v3)) (U (Proc.devRef .tc main_v6)) := by
  simp only [hostOps3]; after_results; rfl
theorem s3_bias : StableHlo.after hostOps3 U (Proc.devRef .tc main_v61) = row1 (U (Proc.devRef .tc main_arg6)) := by
  simp only [hostOps3]; after_results; rfl

end Cert.KernelIdeal.KStages

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KLinear.lean ====
/-
  The two dense layers of the kernel program, read as matrix products.

  Each dense-layer region walks ten grid points. Point t stages rows 10000 t … 10000 t + 9999 of the left
  array and the whole right array, multiplies them on the matrix unit into a zero accumulator, and writes the
  product back as row block t of the output array. At the extended reals the narrowing of the operands is the
  identity and the matrix unit's product is the plain sum of products over the inner index, so what point t
  writes back is row block t of the matrix product of the two arrays; the ten row blocks tile the output, so
  the output array ends holding the whole matrix product.
-/
import proofs.«160689_j1786706395262_1_alg».proof.Proof.Gen.KernelIdeal.Frame
import proofs.«160689_j1786706395262_1_alg».proof.Proof.Spec
import proofs.«160689_j1786706395262_1_alg».proof.Proof.LibPlainDot
import Idealize.ShloMosaic.Lib.Pipeline.Value

noncomputable section

namespace Cert.KernelIdeal.KLinear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zeros2 : (![0, 0] : Fin 2 → Nat) = fun _ => 0 := funext fun a => by fin_cases a <;> rfl

/-! ## The first dense layer: [100000, 128] times [128, 128] -/

/-- The program's contraction record is the plain rows-by-columns contraction. -/
theorem dims0 : dot_S10000x128_S128x128_S10000x128_1_0_0_1_n_n = DotDims.plain 10000 128 128 := rfl

/-- What the body stores, from the two staged blocks: their matrix product. -/
theorem pay0_eq (x0 : Vec Ideal S10000x128 .f32) (x1 : Vec Ideal S128x128 .f32) :
    k0_pay1 (F := Ideal) x0 x1 = Cert.Gcn.matProd (M := 10000) (K := 128) (N := 128) x0 x1 := by
  funext j
  unfold k0_pay1
  rw [dims0]
  exact Cert.PlainDot.matmul_zero_apply none _ _ j

/-- The three windows' index maps, checked at each of the ten grid points: the left window and the output window sit at row
    block t, column block 0; the right window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 10000 t … 10000 t + 9999 of the left array. -/
theorem lblk0_apply (c : Dev nD) (t : Fin cfg0.N) (p : Fin 10000) (k : Fin 128) (r : Fin 100000)
    (hr : r.val = 10000 * t.val + p.val) :
    (iblk0 V c 0 t : Vec Ideal S10000x128 .f32) (ix2 p k)
      = (V c main_arg0 : S100000x128.Idx → Elt Ideal .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 10000 + 1 * p.val = r.val; rw [e0, hr]; omega
  | ⟨1, _⟩ => show win0_0.index t 1 * 128 + 1 * k.val = k.val; rw [e1]; omega

/-- The right window's block at every point is the whole right array. -/
theorem rblk0_apply (c : Dev nD) (t : Fin cfg0.N) (k q : Fin 128) :
    (iblk0 V c 1 t : Vec Ideal S128x128 .f32) (ix2 k q)
      = (V c main_arg3 : S128x128.Idx → Elt Ideal .f32) (ix2 k q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- Reading the output window's block at point t picks rows 10000 t … 10000 t + 9999 of an array. -/
theorem oblk0_apply (t : Fin cfg0.N) (G : S100000x128.Idx → Elt Ideal .f32) (p : Fin 10000) (q : Fin 128)
    (r : Fin 100000) (hr : r.val = 10000 * t.val + p.val) :
    (((cfg0.win 2).blk t).view.read (Elt Ideal) G : Vec Ideal S10000x128 .f32) (ix2 p q) = G (ix2 r q) := by
  obtain ⟨-, -, -, -, e4, e5⟩ := idx_facts0 t
  rw [View.read_apply]
  show G _ = G _
  congr 1
  funext a
  apply Fin.ext
  match a with
  | ⟨0, _⟩ => show win0_2.index t 0 * 10000 + 1 * p.val = r.val; rw [e4, hr]; omega
  | ⟨1, _⟩ => show win0_2.index t 1 * 128 + 1 * q.val = q.val; rw [e5]; omega

/-- The matrix product of a row block of the left array with the whole right array is that row block of the
    matrix product: entry (p, q) of the block product is entry (r, q) of the whole one when row p of the
    block is row r of the array. -/
theorem matProd_rows (A : FVec Ideal (⟨2, ![100000, 128]⟩ : Shape) .f32) (B : FVec Ideal (⟨2, ![128, 128]⟩ : Shape) .f32)
    (x0 : FVec Ideal (⟨2, ![10000, 128]⟩ : Shape) .f32) (x1 : FVec Ideal (⟨2, ![128, 128]⟩ : Shape) .f32)
    (p : Fin 10000) (q : Fin 128) (r : Fin 100000)
    (h0 : ∀ k : Fin 128, x0 (ix2 p k) = A (ix2 r k)) (h1 : ∀ k : Fin 128, x1 (ix2 k q) = B (ix2 k q)) :
    Cert.Gcn.matProd x0 x1 (ix2 p q) = Cert.Gcn.matProd A B (ix2 r q) := by
  show (∑ k : Fin 128, x0 (ix2 p k) * x1 (ix2 k q)) = ∑ k : Fin 128, A (ix2 r k) * B (ix2 k q)
  exact Finset.sum_congr rfl fun k _ => by rw [h0 k, h1 k]

/-- What point t writes back is row block t of the matrix product of the two arrays as the region finds them. -/
theorem flushed0_eq (c : Dev nD) (t : Fin cfg0.N) :
    (dat0 V c).flushed 2 t = ((cfg0.win 2).blk t).view.read (Elt Ideal)
      (Cert.Gcn.matProd (M := 100000) (K := 128) (N := 128) (V c main_arg0) (V c main_arg3)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  rw [pay0_eq (iblk0 V c 0 t) (iblk0 V c 1 t)]
  funext j
  obtain ⟨p, q, rfl⟩ : ∃ (p : Fin 10000) (q : Fin 128), j = ix2 p q := ⟨j 0, j 1, eq_ix2 j⟩
  have ht : t.val < 10 := t.isLt
  have hp : p.val < 10000 := p.isLt
  rw [oblk0_apply t _ p q ⟨10000 * t.val + p.val, by omega⟩ rfl]
  exact matProd_rows _ _ _ _ p q _ (fun k => lblk0_apply V c t p k _ rfl) (fun k => rblk0_apply V c t k q)

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Every index of the output array is in some point's block: row r is in row block r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array of the first dense layer after its ten points: the matrix product of the left array and
    the right array as the region finds them. -/
theorem arr0 (c : Dev nD) : (Gen.dat0 (F := Ideal) V c).arrAt 2 cfg0.N
    = Cert.Gcn.matProd (M := 100000) (K := 128) (N := 128) (V c main_arg0) (V c main_arg3) :=
  (Gen.dat0 (F := Ideal) V c).arrAt_eq_of_cover 2 _ (fun t _ => flushed0_eq V c t) cover0

/-! ## The second dense layer: [100000, 128] times [128, 1] -/

/-- The program's contraction record is the plain rows-by-columns contraction. -/
theorem dims2 : dot_S10000x128_S128x1_S10000x1_1_0_0_1_n_n = DotDims.plain 10000 128 1 := rfl

/-- What the body stores, from the two staged blocks: their matrix product (the cast of the left block to its
    own shape changes nothing). -/
theorem pay2_eq (x0 : Vec Ideal S10000x128 .f32) (x1 : Vec Ideal S128x1 .f32) :
    k2_pay1 (F := Ideal) x0 x1 = Cert.Gcn.matProd (M := 10000) (K := 128) (N := 1) x0 x1 := by
  funext j
  unfold k2_pay1
  rw [dims2, shapeCast_self]
  exact Cert.PlainDot.matmul_zero_apply none _ _ j

/-- The three windows' index maps, checked at each of the ten grid points: the left window and the output window sit at row
    block t, column block 0; the right window stays at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 10000 t … 10000 t + 9999 of the left array. -/
theorem lblk2_apply (c : Dev nD) (t : Fin cfg2.N) (p : Fin 10000) (k : Fin 128) (r : Fin 100000)
    (hr : r.val = 10000 * t.val + p.val) :
    (iblk2 V c 0 t : Vec Ideal S10000x128 .f32) (ix2 p k)
      = (V c main_v47 : S100000x128.Idx → Elt Ideal .f32) (ix2 r k) := by
  obtain ⟨e0, e1, -⟩ := idx_facts2 t
  unfold iblk2
  rw [View.read_apply]
  show V c main_v47 _ = V c main_v47 _
  congr 1
  funext a
  apply Fin.ext
  match a with
  | ⟨0, _⟩ => show win2_0.index t 0 * 10000 + 1 * p.val = r.val; rw [e0, hr]; omega
  | ⟨1, _⟩ => show win2_0.index t 1 * 128 + 1 * k.val = k.val; rw [e1]; omega

/-- The right window's block at every point is the whole right array. -/
theorem rblk2_apply (c : Dev nD) (t : Fin cfg2.N) (k : Fin 128) (q : Fin 1) :
    (iblk2 V c 1 t : Vec Ideal S128x1 .f32) (ix2 k q)
      = (V c main_arg5 : S128x1.Idx → Elt Ideal .f32) (ix2 k q) := by
  obtain ⟨-, -, e2, e3, -⟩ := idx_facts2 t
  unfold iblk2
  rw [View.read_apply]
  show V c main_arg5 _ = V c main_arg5 _
  congr 1
  funext a
  apply Fin.ext
  match a with
  | ⟨0, _⟩ => show win2_1.index t 0 * 128 + 1 * k.val = k.val; rw [e2]; omega
  | ⟨1, _⟩ => show win2_1.index t 1 * 1 + 1 * q.val = q.val; rw [e3]; omega

/-- Reading the output window's block at point t picks rows 10000 t … 10000 t + 9999 of an array. -/
theorem oblk2_apply (t : Fin cfg2.N) (G : S100000x1.Idx → Elt Ideal .f32) (p : Fin 10000) (q : Fin 1)
    (r : Fin 100000) (hr : r.val = 10000 * t.val + p.val) :
    (((cfg2.win 2).blk t).view.read (Elt Ideal) G : Vec Ideal S10000x1 .f32) (ix2 p q) = G (ix2 r q) := by
  obtain ⟨-, -, -, -, e4, e5⟩ := idx_facts2 t
  rw [View.read_apply]
  show G _ = G _
  congr 1
  funext a
  apply Fin.ext
  match a with
  | ⟨0, _⟩ => show win2_2.index t 0 * 10000 + 1 * p.val = r.val; rw [e4, hr]; omega
  | ⟨1, _⟩ => show win2_2.index t 1 * 1 + 1 * q.val = q.val; rw [e5]; omega

/-- The matrix product of a row block of the left array with the whole one-column right array is that row block
    of the matrix product. -/
theorem matProd_rows_col (A : FVec Ideal (⟨2, ![100000, 128]⟩ : Shape) .f32) (B : FVec Ideal (⟨2, ![128, 1]⟩ : Shape) .f32)
    (x0 : FVec Ideal (⟨2, ![10000, 128]⟩ : Shape) .f32) (x1 : FVec Ideal (⟨2, ![128, 1]⟩ : Shape) .f32)
    (p : Fin 10000) (q : Fin 1) (r : Fin 100000)
    (h0 : ∀ k : Fin 128, x0 (ix2 p k) = A (ix2 r k)) (h1 : ∀ k : Fin 128, x1 (ix2 k q) = B (ix2 k q)) :
    Cert.Gcn.matProd x0 x1 (ix2 p q) = Cert.Gcn.matProd A B (ix2 r q) := by
  show (∑ k : Fin 128, x0 (ix2 p k) * x1 (ix2 k q)) = ∑ k : Fin 128, A (ix2 r k) * B (ix2 k q)
  exact Finset.sum_congr rfl fun k _ => by rw [h0 k, h1 k]

/-- What point t writes back is row block t of the matrix product of the two arrays as the region finds them. -/
theorem flushed2_eq (c : Dev nD) (t : Fin cfg2.N) :
    (dat2 V c).flushed 2 t = ((cfg2.win 2).blk t).view.read (Elt Ideal)
      (Cert.Gcn.matProd (M := 100000) (K := 128) (N := 1) (V c main_v47) (V c main_arg5)) := by
  show (cfg2.win 2).cut (grid2.coords t) ((dat2 V c).after 2 t) = _
  rw [after2_2]
  unfold out2_2
  rw [View.canon_unit_zero zeros2]
  simp only [View.ld_unit_zero (S := S10000x128) zeros2, View.ld_unit_zero (S := S128x1) zeros2]
  rw [pay2_eq (iblk2 V c 0 t) (iblk2 V c 1 t)]
  funext j
  obtain ⟨p, q, rfl⟩ : ∃ (p : Fin 10000) (q : Fin 1), j = ix2 p q := ⟨j 0, j 1, eq_ix2 j⟩
  have ht : t.val < 10 := t.isLt
  have hp : p.val < 10000 := p.isLt
  rw [oblk2_apply t _ p q ⟨10000 * t.val + p.val, by omega⟩ rfl]
  exact matProd_rows_col _ _ _ _ p q _ (fun k => lblk2_apply V c t p k _ rfl) (fun k => rblk2_apply V c t k q)

/-- An index of the output array is in point t's block iff each coordinate is in the block's range on its axis. -/
theorem mem_blk2 (t : Fin cfg2.N) (i : S100000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v48).slice (win2_2.rect t)).set ↔ _
  rw [View.set_slice_whole, Rect.mem_set_unit]
  exact Iff.rfl

/-- Every index of the output array is in some point's block: row r is in row block r / 10000. -/
theorem cover2 (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 1 ≤ (i 1).val ∧ (i 1).val < win2_2.index t (1 : Fin 2) * 1 + 1
    omega

/-- The output array of the second dense layer after its ten points: the matrix product of the left array and
    the one-column right array as the region finds them. -/
theorem arr2 (c : Dev nD) : (Gen.dat2 (F := Ideal) V c).arrAt 2 cfg2.N
    = Cert.Gcn.matProd (M := 100000) (K := 128) (N := 1) (V c main_v47) (V c main_arg5) :=
  (Gen.dat2 (F := Ideal) V c).arrAt_eq_of_cover 2 _ (fun t _ => flushed2_eq V c t) cover2

end Cert.KernelIdeal.KLinear

end
-- ==== Proof.KAct.lean ====
import proofs.«160689_j1786706395262_1_alg».proof.Proof.Gen.KernelIdeal.Frame
import proofs.«160689_j1786706395262_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KAct

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The origin of a rank-2 array. -/
theorem origin2 : (![0, 0] : Fin 2 → Nat) = fun _ => 0 := funext fun a => by fin_cases a <;> rfl

/-! ## The first activation: the bias row added to every row, then ELU entry by entry -/

/-- One entry of a block of 10000 rows after the bias row is added and ELU applied. -/
theorem elu_entry (x0 : Vec Ideal S10000x128 .f32) (x1 : Vec Ideal S1x128 .f32) (p : Fin 10000) (q : Fin 128) :
    k1_pay1 (F := Ideal) x0 x1 (ix2 p q)
      = Cert.Gcn.eluPt (FloatOps.addf (x0 (ix2 p q)) (x1 (ix2 (0 : Fin 1) q))) := by
  unfold k1_pay1
  rw [shapeCast_self, shapeCast_self]
  have hb : broadcastTo S10000x128 x1 broadcasts_S1x128_S10000x128 (ix2 p q) = x1 (ix2 (0 : Fin 1) q) :=
    broadcastTo_1b_ab_apply x1 broadcasts_S1x128_S10000x128 p q
  show Cert.Gcn.eluPt (FloatOps.addf (x0 (ix2 p q)) (broadcastTo S10000x128 x1 broadcasts_S1x128_S10000x128 (ix2 p q))) = _
  rw [hb]

/-- The whole block, entry by entry. -/
theorem elu_block (x0 : Vec Ideal S10000x128 .f32) (x1 : Vec Ideal S1x128 .f32) :
    k1_pay1 (F := Ideal) x0 x1
      = fun j : S10000x128.Idx => Cert.Gcn.eluPt (FloatOps.addf (x0 j) (x1 (ix2 (0 : Fin 1) (j 1)))) := by
  funext j
  obtain ⟨p, q, rfl⟩ : ∃ (p : Fin 10000) (q : Fin 128), j = ix2 p q := ⟨j 0, j 1, eq_ix2 j⟩
  exact elu_entry x0 x1 p q

/-- Where each window's block sits at grid point t: the left array's and the result's at block row t, the
    bias row's at the origin. -/
theorem elu_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is rows 10000 t … 10000 t + 9999 of the activated array. -/
theorem elu_flushed (c : Dev nD) (t : Fin cfg1.N) :
    (dat1 (F := Ideal) V c).flushed 2 t
      = ((cfg1.win 2).blk t).view.read (Elt Ideal) (Cert.Gcn.eluRow (M := 100000) (N := 128) (V c main_v45) (V c main_v46)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S1x128) origin2]
  rw [elu_block]
  obtain ⟨e0, e1, e2, e3, e4, e5⟩ := elu_index t
  funext j
  show Cert.Gcn.eluPt (FloatOps.addf (V c main_v45 (((cfg1.win 0).blk t).view.emb j)) (V c main_v46 (((cfg1.win 1).blk t).view.emb (ix2 (0 : Fin 1) (j 1)))))
      = Cert.Gcn.eluPt (FloatOps.addf (V c main_v45 (((cfg1.win 2).blk t).view.emb j)) (V c main_v46 (ix2 (0 : Fin 1) ((((cfg1.win 2).blk t).view.emb j) 1))))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]
  rfl

/-- An index of the array lies in grid point t's block exactly when each coordinate lies in the block's range. -/
theorem elu_mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Row r lies in the block of grid point r / 10000: the ten blocks cover the array. -/
theorem elu_cover (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : (i 0).val / 10000 < cfg1.N := by
    show (i 0).val / 10000 < grid1.N
    rw [N_1]; omega
  obtain ⟨e0, e1, e2, e3, e4, e5⟩ := elu_index ⟨(i 0).val / 10000, hN⟩
  have e4' : win1_2.index ⟨(i 0).val / 10000, hN⟩ (0 : Fin 2) = (i 0).val / 10000 := e4
  refine ⟨⟨(i 0).val / 10000, hN⟩, flush1_2 _, ?_⟩
  rw [elu_mem_blk]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    omega
  | ⟨1, _⟩ =>
    show win1_2.index ⟨(i 0).val / 10000, hN⟩ (1 : Fin 2) * 128 ≤ (i 1).val ∧ (i 1).val < win1_2.index ⟨(i 0).val / 10000, hN⟩ (1 : Fin 2) * 128 + 128
    omega

/-- After the first activation region the result array is the bias-and-ELU of the two arrays the region found. -/
theorem arr1 (c : Dev nD) :
    (Gen.dat1 (F := Ideal) V c).arrAt 2 cfg1.N = Cert.Gcn.eluRow (M := 100000) (N := 128) (V c main_v45) (V c main_v46) :=
  (dat1 (F := Ideal) V c).arrAt_eq_of_cover 2 (Cert.Gcn.eluRow (M := 100000) (N := 128) (V c main_v45) (V c main_v46))
    (fun t _ => elu_flushed V c t) elu_cover

/-! ## The second activation: the bias added to every row, then the logistic function entry by entry -/

/-- One entry of a block of 10000 rows after the bias is added and the logistic function applied. -/
theorem sig_entry (x0 : Vec Ideal S10000x1 .f32) (x1 : Vec Ideal S1x1 .f32) (p : Fin 10000) (q : Fin 1) :
    k3_pay1 (F := Ideal) x0 x1 (ix2 p q)
      = Cert.Gcn.sigPt (FloatOps.addf (x0 (ix2 p q)) (x1 (ix2 (0 : Fin 1) q))) := by
  unfold k3_pay1
  rw [shapeCast_self, shapeCast_self]
  have hb : broadcastTo S10000x1 x1 broadcasts_S1x1_S10000x1 (ix2 p q) = x1 (ix2 (0 : Fin 1) q) :=
    broadcastTo_1b_ab_apply x1 broadcasts_S1x1_S10000x1 p q
  show Cert.Gcn.sigPt (FloatOps.addf (x0 (ix2 p q)) (broadcastTo S10000x1 x1 broadcasts_S1x1_S10000x1 (ix2 p q))) = _
  rw [hb]

/-- The whole block, entry by entry. -/
theorem sig_block (x0 : Vec Ideal S10000x1 .f32) (x1 : Vec Ideal S1x1 .f32) :
    k3_pay1 (F := Ideal) x0 x1
      = fun j : S10000x1.Idx => Cert.Gcn.sigPt (FloatOps.addf (x0 j) (x1 (ix2 (0 : Fin 1) (j 1)))) := by
  funext j
  obtain ⟨p, q, rfl⟩ : ∃ (p : Fin 10000) (q : Fin 1), j = ix2 p q := ⟨j 0, j 1, eq_ix2 j⟩
  exact sig_entry x0 x1 p q

/-- Where each window's block sits at grid point t: the left array's and the result's at block row t, the
    bias's at the origin. -/
theorem sig_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is rows 10000 t … 10000 t + 9999 of the activated array. -/
theorem sig_flushed (c : Dev nD) (t : Fin cfg3.N) :
    (dat3 (F := Ideal) V c).flushed 2 t
      = ((cfg3.win 2).blk t).view.read (Elt Ideal) (Cert.Gcn.sigRow (M := 100000) (N := 1) (V c main_v60) (V c main_v61)) := by
  show (cfg3.win 2).cut (grid3.coords t) ((dat3 V c).after 2 t) = _
  rw [after3_2]
  unfold out3_2
  rw [View.canon_unit_zero origin2]
  simp only [View.ld_unit_zero (S := S10000x1) origin2, View.ld_unit_zero (S := S1x1) origin2]
  rw [sig_block]
  obtain ⟨e0, e1, e2, e3, e4, e5⟩ := sig_index t
  funext j
  show Cert.Gcn.sigPt (FloatOps.addf (V c main_v60 (((cfg3.win 0).blk t).view.emb j)) (V c main_v61 (((cfg3.win 1).blk t).view.emb (ix2 (0 : Fin 1) (j 1)))))
      = Cert.Gcn.sigPt (FloatOps.addf (V c main_v60 (((cfg3.win 2).blk t).view.emb j)) (V c main_v61 (ix2 (0 : Fin 1) ((((cfg3.win 2).blk t).view.emb j) 1))))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 1 + 1 * (j 1).val = win3_2.index t (1 : Fin 2) * 1 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 1 + 1 * (j 1).val = win3_2.index t (1 : Fin 2) * 1 + 1 * (j 1).val; omega
  rw [h0, h1]
  rfl

/-- An index of the array lies in grid point t's block exactly when each coordinate lies in the block's range. -/
theorem sig_mem_blk (t : Fin cfg3.N) (i : S100000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v62).slice (win3_2.rect t)).set ↔ _
  rw [View.set_slice_whole, Rect.mem_set_unit]
  exact Iff.rfl

/-- Row r lies in the block of grid point r / 10000: the ten blocks cover the array. -/
theorem sig_cover (i : S100000x1.Idx) :
    ∃ t : Fin cfg3.N, (cfg3.win 2).flush t = true ∧ i ∈ ((cfg3.win 2).blk t).view.set := by
  have hi0 : (i 0).val < 100000 := idx2_lt0 i
  have hi1 : (i 1).val < 1 := idx2_lt1 i
  have hN : (i 0).val / 10000 < cfg3.N := by
    show (i 0).val / 10000 < grid3.N
    rw [N_3]; omega
  obtain ⟨e0, e1, e2, e3, e4, e5⟩ := sig_index ⟨(i 0).val / 10000, hN⟩
  have e4' : win3_2.index ⟨(i 0).val / 10000, hN⟩ (0 : Fin 2) = (i 0).val / 10000 := e4
  refine ⟨⟨(i 0).val / 10000, hN⟩, flush3_2 _, ?_⟩
  rw [sig_mem_blk]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    omega
  | ⟨1, _⟩ =>
    show win3_2.index ⟨(i 0).val / 10000, hN⟩ (1 : Fin 2) * 1 ≤ (i 1).val ∧ (i 1).val < win3_2.index ⟨(i 0).val / 10000, hN⟩ (1 : Fin 2) * 1 + 1
    omega

/-- After the second activation region the result array is the bias-and-logistic of the two arrays the region found. -/
theorem arr3 (c : Dev nD) :
    (Gen.dat3 (F := Ideal) V c).arrAt 2 cfg3.N = Cert.Gcn.sigRow (M := 100000) (N := 1) (V c main_v60) (V c main_v61) :=
  (dat3 (F := Ideal) V c).arrAt_eq_of_cover 2 (Cert.Gcn.sigRow (M := 100000) (N := 1) (V c main_v60) (V c main_v61))
    (fun t _ => sig_flushed V c t) sig_cover

end Cert.KernelIdeal.KAct

end
-- ==== Proof.KFold.lean ====
/-
  The idealized kernel program's two results as functions of its arguments.

  The buffers' contents at each boundary between the program's segments are a fold from the launch memory: a host
  stretch applies its operations, a kernel region replaces its output array by what its blocks leave. Reading the
  fold back from the last boundary: the second result is the logistic activation of the biased aggregation of the
  second dense layer's product; that layer's left operand is the first result, the ELU activation of the biased
  aggregation of the first dense layer's product; and the graph data (sources, targets, edge coefficients) are
  computed once, before the first region, and only carried afterwards.
-/
import proofs.«160689_j1786706395262_1_alg».proof.Proof.Gen.KernelIdeal.Frame
import proofs.«160689_j1786706395262_1_alg».proof.Proof.Spec
import proofs.«160689_j1786706395262_1_alg».proof.Proof.KStages
import proofs.«160689_j1786706395262_1_alg».proof.Proof.KLinear
import proofs.«160689_j1786706395262_1_alg».proof.Proof.KAct
import Idealize.ShloMosaic.Lib.StableHlo.Run

set_option maxRecDepth 16384
set_option maxHeartbeats 4000000

noncomputable section

namespace Cert.KernelIdeal.KFold

open Cert.KernelIdeal Cert.KernelIdeal.Gen Cert.KernelIdeal.KStages
open Idealize.ShloMosaic Idealize.ShloMosaic.TcCoe Idealize.ShloMosaic.StableHlo Idealize.SL.Sem

/-- The first result (the node embeddings): ELU of the aggregated first dense layer plus its bias row. -/
def embK (x : FVec Ideal S100000x128 .f32) (ei : IVec S2x1600000 32) (w : FVec Ideal S1600000 .f32)
    (W1 : FVec Ideal S128x128 .f32) (b1 : FVec Ideal S128 .f32) : FVec Ideal S100000x128 .f32 :=
  Cert.Gcn.eluRow (M := 100000) (N := 128) (agg128 (Cert.Gcn.matProd (M := 100000) (K := 128) (N := 128) x W1) ei w) (row128 b1)

/-- The second result: the logistic function of the aggregated second dense layer plus its bias. -/
def outK (x : FVec Ideal S100000x128 .f32) (ei : IVec S2x1600000 32) (w : FVec Ideal S1600000 .f32)
    (W1 : FVec Ideal S128x128 .f32) (b1 : FVec Ideal S128 .f32) (W2 : FVec Ideal S128x1 .f32) (b2 : FVec Ideal S1 .f32) :
    FVec Ideal S100000x1 .f32 :=
  Cert.Gcn.sigRow (M := 100000) (N := 1)
    (agg1 (Cert.Gcn.matProd (M := 100000) (K := 128) (N := 1) (embK x ei w W1 b1) W2) ei w) (row1 b2)

/-- A buffer that no operation of a host stretch writes keeps its contents across the stretch. -/
macro "kept" : tactic => `(tactic| (
  refine StableHlo.after_of_forall_not_mem (b := _) _ _ (List.forall_iff_forall_mem.mp ?_)
  simp only [hostOps0, hostOps0_1, hostOps0_2, hostOps1, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

/-! ## After the first stretch -/

theorem W1_v3 (c : Dev nD) : W1 m ρ c (Proc.devRef .tc main_v3) = rowOf (m ((c : Thread nD τ).loc main_arg1)) := s0_row (W0 m ρ c)

theorem W1_v6 (c : Dev nD) : W1 m ρ c (Proc.devRef .tc main_v6) = colOf (m ((c : Thread nD τ).loc main_arg1)) := s0_col (W0 m ρ c)

theorem W1_v8 (c : Dev nD) : W1 m ρ c (Proc.devRef .tc main_v8) = ewOf (F := Ideal) (m ((c : Thread nD τ).loc main_arg2)) := s0_ew (W0 m ρ c)

theorem W1_v13 (c : Dev nD) : W1 m ρ c (Proc.devRef .tc main_v13) = cmpf (F := Ideal) .ogt (degOf (F := Ideal) (m ((c : Thread nD τ).loc main_arg1)) (m ((c : Thread nD τ).loc main_arg2))) (broadcastInDim S100000 ![] bcast_S_S100000 (constant S_ .f32 0x00000000#32)) := s0_pos (W0 m ρ c)

theorem W1_v14 (c : Dev nD) : W1 m ρ c (Proc.devRef .tc main_v14) = Host.rsqrt (F := Ideal) (degOf (F := Ideal) (m ((c : Thread nD τ).loc main_arg1)) (m ((c : Thread nD τ).loc main_arg2))) := s0_rsqrt (W0 m ρ c)

theorem W1_cst_2 (c : Dev nD) : W1 m ρ c (Proc.devRef .tc main_cst_2) = constant (F := Ideal) S_ .f32 0x00000000#32 := s0_zero (W0 m ρ c)

theorem W1_arg0 (c : Dev nD) : W1 m ρ c (Proc.devRef .tc main_arg0) = (m ((c : Thread nD τ).loc main_arg0)) :=
  (show W1 m ρ c (Proc.devRef .tc main_arg0) = W0 m ρ c (Proc.devRef .tc main_arg0) by kept).trans rfl

theorem W1_arg3 (c : Dev nD) : W1 m ρ c (Proc.devRef .tc main_arg3) = (m ((c : Thread nD τ).loc main_arg3)) :=
  (show W1 m ρ c (Proc.devRef .tc main_arg3) = W0 m ρ c (Proc.devRef .tc main_arg3) by kept).trans rfl

theorem W1_arg4 (c : Dev nD) : W1 m ρ c (Proc.devRef .tc main_arg4) = (m ((c : Thread nD τ).loc main_arg4)) :=
  (show W1 m ρ c (Proc.devRef .tc main_arg4) = W0 m ρ c (Proc.devRef .tc main_arg4) by kept).trans rfl

theorem W1_arg5 (c : Dev nD) : W1 m ρ c (Proc.devRef .tc main_arg5) = (m ((c : Thread nD τ).loc main_arg5)) :=
  (show W1 m ρ c (Proc.devRef .tc main_arg5) = W0 m ρ c (Proc.devRef .tc main_arg5) by kept).trans rfl

theorem W1_arg6 (c : Dev nD) : W1 m ρ c (Proc.devRef .tc main_arg6) = (m ((c : Thread nD τ).loc main_arg6)) :=
  (show W1 m ρ c (Proc.devRef .tc main_arg6) = W0 m ρ c (Proc.devRef .tc main_arg6) by kept).trans rfl

/-! ## After the inverse-root select -/

theorem W2_v15 (c : Dev nD) : W2 m ρ c (Proc.devRef .tc main_v15) = dinvOf (F := Ideal) (m ((c : Thread nD τ).loc main_arg1)) (m ((c : Thread nD τ).loc main_arg2)) := by
  have h := s01_dinv (W1 m ρ c)
  rw [W1_v13 m ρ c, W1_v14 m ρ c, W1_cst_2 m ρ c] at h
  exact h

theorem W2_v3 (c : Dev nD) : W2 m ρ c (Proc.devRef .tc main_v3) = rowOf (m ((c : Thread nD τ).loc main_arg1)) :=
  (show W2 m ρ c (Proc.devRef .tc main_v3) = W1 m ρ c (Proc.devRef .tc main_v3) by kept).trans (W1_v3 m ρ c)

theorem W2_v6 (c : Dev nD) : W2 m ρ c (Proc.devRef .tc main_v6) = colOf (m ((c : Thread nD τ).loc main_arg1)) :=
  (show W2 m ρ c (Proc.devRef .tc main_v6) = W1 m ρ c (Proc.devRef .tc main_v6) by kept).trans (W1_v6 m ρ c)

theorem W2_v8 (c : Dev nD) : W2 m ρ c (Proc.devRef .tc main_v8) = ewOf (F := Ideal) (m ((c : Thread nD τ).loc main_arg2)) :=
  (show W2 m ρ c (Proc.devRef .tc main_v8) = W1 m ρ c (Proc.devRef .tc main_v8) by kept).trans (W1_v8 m ρ c)

theorem W2_arg0 (c : Dev nD) : W2 m ρ c (Proc.devRef .tc main_arg0) = (m ((c : Thread nD τ).loc main_arg0)) :=
  (show W2 m ρ c (Proc.devRef .tc main_arg0) = W1 m ρ c (Proc.devRef .tc main_arg0) by kept).trans (W1_arg0 m ρ c)

theorem W2_arg3 (c : Dev nD) : W2 m ρ c (Proc.devRef .tc main_arg3) = (m ((c : Thread nD τ).loc main_arg3)) :=
  (show W2 m ρ c (Proc.devRef .tc main_arg3) = W1 m ρ c (Proc.devRef .tc main_arg3) by kept).trans (W1_arg3 m ρ c)

theorem W2_arg4 (c : Dev nD) : W2 m ρ c (Proc.devRef .tc main_arg4) = (m ((c : Thread nD τ).loc main_arg4)) :=
  (show W2 m ρ c (Proc.devRef .tc main_arg4) = W1 m ρ c (Proc.devRef .tc main_arg4) by kept).trans (W1_arg4 m ρ c)

theorem W2_arg5 (c : Dev nD) : W2 m ρ c (Proc.devRef .tc main_arg5) = (m ((c : Thread nD τ).loc main_arg5)) :=
  (show W2 m ρ c (Proc.devRef .tc main_arg5) = W1 m ρ c (Proc.devRef .tc main_arg5) by kept).trans (W1_arg5 m ρ c)

theorem W2_arg6 (c : Dev nD) : W2 m ρ c (Proc.devRef .tc main_arg6) = (m ((c : Thread nD τ).loc main_arg6)) :=
  (show W2 m ρ c (Proc.devRef .tc main_arg6) = W1 m ρ c (Proc.devRef .tc main_arg6) by kept).trans (W1_arg6 m ρ c)

/-! ## At the first region's entry -/

theorem W3_v31 (c : Dev nD) : W3 m ρ c (Proc.devRef .tc main_v31) = normOf (F := Ideal) (m ((c : Thread nD τ).loc main_arg1)) (m ((c : Thread nD τ).loc main_arg2)) := by
  have h := s02_norm (W2 m ρ c)
  rw [W2_v15 m ρ c, W2_v3 m ρ c, W2_v6 m ρ c, W2_v8 m ρ c] at h
  exact h

theorem W3_v3 (c : Dev nD) : W3 m ρ c (Proc.devRef .tc main_v3) = rowOf (m ((c : Thread nD τ).loc main_arg1)) :=
  (show W3 m ρ c (Proc.devRef .tc main_v3) = W2 m ρ c (Proc.devRef .tc main_v3) by kept).trans (W2_v3 m ρ c)

theorem W3_v6 (c : Dev nD) : W3 m ρ c (Proc.devRef .tc main_v6) = colOf (m ((c : Thread nD τ).loc main_arg1)) :=
  (show W3 m ρ c (Proc.devRef .tc main_v6) = W2 m ρ c (Proc.devRef .tc main_v6) by kept).trans (W2_v6 m ρ c)

theorem W3_arg0 (c : Dev nD) : W3 m ρ c (Proc.devRef .tc main_arg0) = (m ((c : Thread nD τ).loc main_arg0)) :=
  (show W3 m ρ c (Proc.devRef .tc main_arg0) = W2 m ρ c (Proc.devRef .tc main_arg0) by kept).trans (W2_arg0 m ρ c)

theorem W3_arg3 (c : Dev nD) : W3 m ρ c (Proc.devRef .tc main_arg3) = (m ((c : Thread nD τ).loc main_arg3)) :=
  (show W3 m ρ c (Proc.devRef .tc main_arg3) = W2 m ρ c (Proc.devRef .tc main_arg3) by kept).trans (W2_arg3 m ρ c)

theorem W3_arg4 (c : Dev nD) : W3 m ρ c (Proc.devRef .tc main_arg4) = (m ((c : Thread nD τ).loc main_arg4)) :=
  (show W3 m ρ c (Proc.devRef .tc main_arg4) = W2 m ρ c (Proc.devRef .tc main_arg4) by kept).trans (W2_arg4 m ρ c)

theorem W3_arg5 (c : Dev nD) : W3 m ρ c (Proc.devRef .tc main_arg5) = (m ((c : Thread nD τ).loc main_arg5)) :=
  (show W3 m ρ c (Proc.devRef .tc main_arg5) = W2 m ρ c (Proc.devRef .tc main_arg5) by kept).trans (W2_arg5 m ρ c)

theorem W3_arg6 (c : Dev nD) : W3 m ρ c (Proc.devRef .tc main_arg6) = (m ((c : Thread nD τ).loc main_arg6)) :=
  (show W3 m ρ c (Proc.devRef .tc main_arg6) = W2 m ρ c (Proc.devRef .tc main_arg6) by kept).trans (W2_arg6 m ρ c)

/-! ## After the first dense layer -/

theorem W4_v32 (c : Dev nD) : W4 m ρ c (Proc.devRef .tc main_v32) = (Cert.Gcn.matProd (M := 100000) (K := 128) (N := 128) (m ((c : Thread nD τ).loc main_arg0)) (m ((c : Thread nD τ).loc main_arg3))) := by
  rw [show W4 m ρ c (Proc.devRef .tc main_v32) = _ from W4_arr m ρ c 2, KLinear.arr0 (V3 m ρ) c]
  show Cert.Gcn.matProd (M := 100000) (K := 128) (N := 128) (W3 m ρ c (Proc.devRef .tc main_arg0)) (W3 m ρ c (Proc.devRef .tc main_arg3)) = _
  rw [W3_arg0 m ρ c, W3_arg3 m ρ c]

theorem W4_v31 (c : Dev nD) : W4 m ρ c (Proc.devRef .tc main_v31) = normOf (F := Ideal) (m ((c : Thread nD τ).loc main_arg1)) (m ((c : Thread nD τ).loc main_arg2)) :=
  (W4_of_ne m ρ c main_v31 (by decide)).trans (W3_v31 m ρ c)

theorem W4_v3 (c : Dev nD) : W4 m ρ c (Proc.devRef .tc main_v3) = rowOf (m ((c : Thread nD τ).loc main_arg1)) :=
  (W4_of_ne m ρ c main_v3 (by decide)).trans (W3_v3 m ρ c)

theorem W4_v6 (c : Dev nD) : W4 m ρ c (Proc.devRef .tc main_v6) = colOf (m ((c : Thread nD τ).loc main_arg1)) :=
  (W4_of_ne m ρ c main_v6 (by decide)).trans (W3_v6 m ρ c)

theorem W4_arg4 (c : Dev nD) : W4 m ρ c (Proc.devRef .tc main_arg4) = (m ((c : Thread nD τ).loc main_arg4)) :=
  (W4_of_ne m ρ c main_arg4 (by decide)).trans (W3_arg4 m ρ c)

theorem W4_arg5 (c : Dev nD) : W4 m ρ c (Proc.devRef .tc main_arg5) = (m ((c : Thread nD τ).loc main_arg5)) :=
  (W4_of_ne m ρ c main_arg5 (by decide)).trans (W3_arg5 m ρ c)

theorem W4_arg6 (c : Dev nD) : W4 m ρ c (Proc.devRef .tc main_arg6) = (m ((c : Thread nD τ).loc main_arg6)) :=
  (W4_of_ne m ρ c main_arg6 (by decide)).trans (W3_arg6 m ρ c)

/-! ## At the first activation's entry -/

theorem W5_v45 (c : Dev nD) : W5 m ρ c (Proc.devRef .tc main_v45) = agg128 (F := Ideal) (Cert.Gcn.matProd (M := 100000) (K := 128) (N := 128) (m ((c : Thread nD τ).loc main_arg0)) (m ((c : Thread nD τ).loc main_arg3))) (m ((c : Thread nD τ).loc main_arg1)) (m ((c : Thread nD τ).loc main_arg2)) := by
  have h := s1_agg (W4 m ρ c)
  rw [W4_v32 m ρ c, W4_v31 m ρ c, W4_v3 m ρ c, W4_v6 m ρ c] at h
  exact h

theorem W5_v46 (c : Dev nD) : W5 m ρ c (Proc.devRef .tc main_v46) = row128 (F := Ideal) (m ((c : Thread nD τ).loc main_arg4)) := by
  have h := s1_bias (W4 m ρ c)
  rw [W4_arg4 m ρ c] at h
  exact h

theorem W5_v31 (c : Dev nD) : W5 m ρ c (Proc.devRef .tc main_v31) = normOf (F := Ideal) (m ((c : Thread nD τ).loc main_arg1)) (m ((c : Thread nD τ).loc main_arg2)) :=
  (show W5 m ρ c (Proc.devRef .tc main_v31) = W4 m ρ c (Proc.devRef .tc main_v31) by kept).trans (W4_v31 m ρ c)

theorem W5_v3 (c : Dev nD) : W5 m ρ c (Proc.devRef .tc main_v3) = rowOf (m ((c : Thread nD τ).loc main_arg1)) :=
  (show W5 m ρ c (Proc.devRef .tc main_v3) = W4 m ρ c (Proc.devRef .tc main_v3) by kept).trans (W4_v3 m ρ c)

theorem W5_v6 (c : Dev nD) : W5 m ρ c (Proc.devRef .tc main_v6) = colOf (m ((c : Thread nD τ).loc main_arg1)) :=
  (show W5 m ρ c (Proc.devRef .tc main_v6) = W4 m ρ c (Proc.devRef .tc main_v6) by kept).trans (W4_v6 m ρ c)

theorem W5_arg5 (c : Dev nD) : W5 m ρ c (Proc.devRef .tc main_arg5) = (m ((c : Thread nD τ).loc main_arg5)) :=
  (show W5 m ρ c (Proc.devRef .tc main_arg5) = W4 m ρ c (Proc.devRef .tc main_arg5) by kept).trans (W4_arg5 m ρ c)

theorem W5_arg6 (c : Dev nD) : W5 m ρ c (Proc.devRef .tc main_arg6) = (m ((c : Thread nD τ).loc main_arg6)) :=
  (show W5 m ρ c (Proc.devRef .tc main_arg6) = W4 m ρ c (Proc.devRef .tc main_arg6) by kept).trans (W4_arg6 m ρ c)

/-! ## After the first activation -/

theorem W6_v47 (c : Dev nD) : W6 m ρ c (Proc.devRef .tc main_v47) = (embK (m ((c : Thread nD τ).loc main_arg0)) (m ((c : Thread nD τ).loc main_arg1)) (m ((c : Thread nD τ).loc main_arg2)) (m ((c : Thread nD τ).loc main_arg3)) (m ((c : Thread nD τ).loc main_arg4))) := by
  rw [show W6 m ρ c (Proc.devRef .tc main_v47) = _ from W6_arr m ρ c 2, KAct.arr1 (V5 m ρ) c]
  show Cert.Gcn.eluRow (M := 100000) (N := 128) (W5 m ρ c (Proc.devRef .tc main_v45)) (W5 m ρ c (Proc.devRef .tc main_v46)) = _
  rw [W5_v45 m ρ c, W5_v46 m ρ c]
  rfl

theorem W6_v31 (c : Dev nD) : W6 m ρ c (Proc.devRef .tc main_v31) = normOf (F := Ideal) (m ((c : Thread nD τ).loc main_arg1)) (m ((c : Thread nD τ).loc main_arg2)) :=
  (W6_of_ne m ρ c main_v31 (by decide)).trans (W5_v31 m ρ c)

theorem W6_v3 (c : Dev nD) : W6 m ρ c (Proc.devRef .tc main_v3) = rowOf (m ((c : Thread nD τ).loc main_arg1)) :=
  (W6_of_ne m ρ c main_v3 (by decide)).trans (W5_v3 m ρ c)

theorem W6_v6 (c : Dev nD) : W6 m ρ c (Proc.devRef .tc main_v6) = colOf (m ((c : Thread nD τ).loc main_arg1)) :=
  (W6_of_ne m ρ c main_v6 (by decide)).trans (W5_v6 m ρ c)

theorem W6_arg5 (c : Dev nD) : W6 m ρ c (Proc.devRef .tc main_arg5) = (m ((c : Thread nD τ).loc main_arg5)) :=
  (W6_of_ne m ρ c main_arg5 (by decide)).trans (W5_arg5 m ρ c)

theorem W6_arg6 (c : Dev nD) : W6 m ρ c (Proc.devRef .tc main_arg6) = (m ((c : Thread nD τ).loc main_arg6)) :=
  (W6_of_ne m ρ c main_arg6 (by decide)).trans (W5_arg6 m ρ c)

/-! ## After the second dense layer -/

theorem W7_v47 (c : Dev nD) : W7 m ρ c (Proc.devRef .tc main_v47) = (embK (m ((c : Thread nD τ).loc main_arg0)) (m ((c : Thread nD τ).loc main_arg1)) (m ((c : Thread nD τ).loc main_arg2)) (m ((c : Thread nD τ).loc main_arg3)) (m ((c : Thread nD τ).loc main_arg4))) :=
  ((W7_arr m ρ c 0).trans (((dat2 (V6 m ρ) c).arrAt_in 0 rfl _).trans (A_eq2 (V6 m ρ) c 0))).trans (W6_v47 m ρ c)

theorem W7_v48 (c : Dev nD) : W7 m ρ c (Proc.devRef .tc main_v48) = Cert.Gcn.matProd (M := 100000) (K := 128) (N := 1) (embK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  rw [show W7 m ρ c (Proc.devRef .tc main_v48) = _ from W7_arr m ρ c 2, KLinear.arr2 (V6 m ρ) c]
  show Cert.Gcn.matProd (M := 100000) (K := 128) (N := 1) (W6 m ρ c (Proc.devRef .tc main_v47)) (W6 m ρ c (Proc.devRef .tc main_arg5)) = _
  rw [W6_v47 m ρ c, W6_arg5 m ρ c]

theorem W7_v31 (c : Dev nD) : W7 m ρ c (Proc.devRef .tc main_v31) = normOf (F := Ideal) (m ((c : Thread nD τ).loc main_arg1)) (m ((c : Thread nD τ).loc main_arg2)) :=
  (W7_of_ne m ρ c main_v31 (by decide)).trans (W6_v31 m ρ c)

theorem W7_v3 (c : Dev nD) : W7 m ρ c (Proc.devRef .tc main_v3) = rowOf (m ((c : Thread nD τ).loc main_arg1)) :=
  (W7_of_ne m ρ c main_v3 (by decide)).trans (W6_v3 m ρ c)

theorem W7_v6 (c : Dev nD) : W7 m ρ c (Proc.devRef .tc main_v6) = colOf (m ((c : Thread nD τ).loc main_arg1)) :=
  (W7_of_ne m ρ c main_v6 (by decide)).trans (W6_v6 m ρ c)

theorem W7_arg6 (c : Dev nD) : W7 m ρ c (Proc.devRef .tc main_arg6) = (m ((c : Thread nD τ).loc main_arg6)) :=
  (W7_of_ne m ρ c main_arg6 (by decide)).trans (W6_arg6 m ρ c)

/-! ## At the second activation's entry -/

theorem W8_v60 (c : Dev nD) : W8 m ρ c (Proc.devRef .tc main_v60) = agg1 (F := Ideal) (Cert.Gcn.matProd (M := 100000) (K := 128) (N := 1) (embK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (m ((c : Thread nD τ).loc main_arg1)) (m ((c : Thread nD τ).loc main_arg2)) := by
  have h := s3_agg (W7 m ρ c)
  rw [W7_v48 m ρ c, W7_v31 m ρ c, W7_v3 m ρ c, W7_v6 m ρ c] at h
  exact h

theorem W8_v61 (c : Dev nD) : W8 m ρ c (Proc.devRef .tc main_v61) = row1 (F := Ideal) (m ((c : Thread nD τ).loc main_arg6)) := by
  have h := s3_bias (W7 m ρ c)
  rw [W7_arg6 m ρ c] at h
  exact h

theorem W8_v47 (c : Dev nD) : W8 m ρ c (Proc.devRef .tc main_v47) = (embK (m ((c : Thread nD τ).loc main_arg0)) (m ((c : Thread nD τ).loc main_arg1)) (m ((c : Thread nD τ).loc main_arg2)) (m ((c : Thread nD τ).loc main_arg3)) (m ((c : Thread nD τ).loc main_arg4))) :=
  (show W8 m ρ c (Proc.devRef .tc main_v47) = W7 m ρ c (Proc.devRef .tc main_v47) by kept).trans (W7_v47 m ρ c)

/-! ## After the last region: the two results -/

theorem W9_v62 (c : Dev nD) : W9 m ρ c (Proc.devRef .tc main_v62) = (outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [show W9 m ρ c (Proc.devRef .tc main_v62) = _ from W9_arr m ρ c 2, KAct.arr3 (V8 m ρ) c]
  show Cert.Gcn.sigRow (M := 100000) (N := 1) (W8 m ρ c (Proc.devRef .tc main_v60)) (W8 m ρ c (Proc.devRef .tc main_v61)) = _
  rw [W8_v60 m ρ c, W8_v61 m ρ c]
  rfl

theorem W9_v47 (c : Dev nD) : W9 m ρ c (Proc.devRef .tc main_v47) = (embK (m ((c : Thread nD τ).loc main_arg0)) (m ((c : Thread nD τ).loc main_arg1)) (m ((c : Thread nD τ).loc main_arg2)) (m ((c : Thread nD τ).loc main_arg3)) (m ((c : Thread nD τ).loc main_arg4))) :=
  (W9_of_ne m ρ c main_v47 (by decide)).trans (W8_v47 m ρ c)

end Cert.KernelIdeal.KFold

end
-- ==== Proof.RefRun.lean ====
/-
  The run of the reference program for the two-layer graph convolution.

  The reference is a straight line of array operations with no kernel. Three of its lines call a
  small function (an element-wise choice against a broadcast zero, twice; the ELU activation, which
  itself makes two such choices); a call means the callee's operations executed on the call's own
  buffers, so the whole program is one list of operations, in program order. Run from any memory,
  every buffer ends holding the fold of that list over the launch contents.

  The two results are then read as a composition of named stages of the arguments:
    normalised adjacency weights  norm = dinv[row] * ew * dinv[col],  dinv = deg^(-1/2) where deg > 0, else 0,
    deg = the sum of ew over the edges arriving at a node (self loops appended with weight one);
    a layer  h -> act (sum over arriving edges of norm * (h W)[row] + b),
    with act the ELU for the first layer and the logistic function for the second.
  The second layer recomputes the same index vectors, degrees and weights from the same arguments,
  so its stages are the same terms as the first layer's.
-/
import proofs.«160689_j1786706395262_1_alg».proof.ReferenceIdeal
import proofs.«160689_j1786706395262_1_alg».proof.Proof.Gen.ReferenceIdeal
import Idealize.ShloMosaic.Lib.StableHlo.Run
import Mathlib.Data.List.Basic

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The first sixty statements: the first dense layer's product, the edge lists with self loops appended, the degrees and their inverse square roots (the first choice against zero inlined), the edge weights normalised, the weighted neighbour sum of the first layer and its bias. -/
abbrev ops0 : List (HloOp τ sig (Elt F)) :=
  [ binary main_arg0 main_arg3 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v1 (iotaInDim S100000 32 0),
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    reshape main_v5 main_v6 rfl shapeCasts_S1x1600000_S1600000,
    binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg2 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v14 : TRef sig ⟨S100000, .i1⟩) (.of main_v15 : TRef sig ⟨S100000, .f32⟩) main_call0.v1 main_call0.v2 select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v4 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v19 (broadcastInDim S1700000 ![] bcast_S_S1700000 : (⟨S_, .i32⟩ : BufTy).Contents (Elt F) → (⟨S1700000, .i32⟩ : BufTy).Contents (Elt F)),
    binary main_v4 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v4 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v9 main_v24 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v25 (broadcastInDim S1700000 ![] bcast_S_S1700000 : (⟨S_, .i32⟩ : BufTy).Contents (Elt F) → (⟨S1700000, .i32⟩ : BufTy).Contents (Elt F)),
    binary main_v7 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v7 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)),
    unary main_v32 main_v33 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v34 (broadcastInDim S1700000 ![] bcast_S_S1700000 : (⟨S_, .i32⟩ : BufTy).Contents (Elt F) → (⟨S1700000, .i32⟩ : BufTy).Contents (Elt F)),
    binary main_v4 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v36 (broadcastInDim S1700000 ![] bcast_S_S1700000 : (⟨S_, .i32⟩ : BufTy).Contents (Elt F) → (⟨S1700000, .i32⟩ : BufTy).Contents (Elt F)),
    binary main_v4 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v4 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v0 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v33 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v41 main_v40 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v7 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The next sixty statements: the ELU (its two inner choices inlined), the second dense product, the index vectors, degrees and normalised weights computed again, the weighted neighbour sum of the second layer and its bias. -/
abbrev ops1 : List (HloOp τ sig (Elt F)) :=
  [ TRef.nullary main_call1.cst (constant S_ .f32 0x00000000#32),
    TRef.unary main_call1.cst main_call1.v0 (broadcastInDim S100000x128 ![] bcast_S_S100000x128),
    TRef.binary (.of main_v48 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v48 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v48 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v48 : TRef sig ⟨S100000x128, .f32⟩) main_call1.v7 main_call1.call1.v0 select,
    binary main_v49 main_arg5 main_v50 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    nullary main_v51 (iotaInDim S100000 32 0),
    unary main_arg1 main_v52 ((extractStridedSlice S1x1600000 ![0, 0] · slices_S2x1600000_S1x1600000_0_0) : (⟨S2x1600000, .i32⟩ : BufTy).Contents (Elt F) → (⟨S1x1600000, .i32⟩ : BufTy).Contents (Elt F)),
    reshape main_v52 main_v53 rfl shapeCasts_S1x1600000_S1600000,
    binary main_v53 main_v51 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v55 ((extractStridedSlice S1x1600000 ![1, 0] · slices_S2x1600000_S1x1600000_1_0) : (⟨S2x1600000, .i32⟩ : BufTy).Contents (Elt F) → (⟨S1x1600000, .i32⟩ : BufTy).Contents (Elt F)),
    reshape main_v55 main_v56 rfl shapeCasts_S1x1600000_S1600000,
    binary main_v56 main_v51 main_v57 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v58 (broadcastInDim S100000 ![] bcast_S_S100000 : (⟨S_, .f32⟩ : BufTy).Contents (Elt F) → (⟨S100000, .f32⟩ : BufTy).Contents (Elt F)),
    binary main_arg2 main_v58 main_v59 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_10 (constant S_ .f32 0x00000000#32),
    unary main_cst_10 main_v60 (broadcastInDim S100000 ![] bcast_S_S100000 : (⟨S_, .f32⟩ : BufTy).Contents (Elt F) → (⟨S100000, .f32⟩ : BufTy).Contents (Elt F)),
    unary main_v57 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v63 (broadcastInDim S100000 ![] bcast_S_S100000 : (⟨S_, .f32⟩ : BufTy).Contents (Elt F) → (⟨S100000, .f32⟩ : BufTy).Contents (Elt F)),
    binary main_v62 main_v63 main_v64 (cmpf .ogt : (⟨S100000, .f32⟩ : BufTy).Contents (Elt F) → (⟨S100000, .f32⟩ : BufTy).Contents (Elt F) → (⟨S100000, .i1⟩ : BufTy).Contents (Elt F)),
    unary main_v62 main_v65 (Host.rsqrt : (⟨S100000, .f32⟩ : BufTy).Contents (Elt F) → (⟨S100000, .f32⟩ : BufTy).Contents (Elt F)),
    nullary main_cst_12 (constant S_ .f32 0x00000000#32),
    TRef.unary (.of main_cst_12 : TRef sig ⟨S_, .f32⟩) main_call2.v0 id,
    TRef.unary main_call2.v0 main_call2.v1 (broadcastInDim S100000 ![] bcast_S_S100000),
    TRef.ternary (.of main_v64 : TRef sig ⟨S100000, .i1⟩) (.of main_v65 : TRef sig ⟨S100000, .f32⟩) main_call2.v1 main_call2.v2 select,
    nullary main_c_13 (constantI S_ 32 0#32),
    unary main_c_13 main_v67 (broadcastInDim S1700000 ![] bcast_S_S1700000 : (⟨S_, .i32⟩ : BufTy).Contents (Elt F) → (⟨S1700000, .i32⟩ : BufTy).Contents (Elt F)),
    binary main_v54 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v69 (broadcastInDim S1700000 ![] bcast_S_S1700000 : (⟨S_, .i32⟩ : BufTy).Contents (Elt F) → (⟨S1700000, .i32⟩ : BufTy).Contents (Elt F)),
    binary main_v54 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v54 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v73 main_v59 main_v74 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v75 (broadcastInDim S1700000 ![] bcast_S_S1700000 : (⟨S_, .i32⟩ : BufTy).Contents (Elt F) → (⟨S1700000, .i32⟩ : BufTy).Contents (Elt F)),
    binary main_v57 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v77 (broadcastInDim S1700000 ![] bcast_S_S1700000 : (⟨S_, .i32⟩ : BufTy).Contents (Elt F) → (⟨S1700000, .i32⟩ : BufTy).Contents (Elt F)),
    binary main_v57 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v57 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v66 main_v80 main_v81 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v74 main_v81 main_v82 (mulf : (⟨S1700000, .f32⟩ : BufTy).Contents (Elt F) → (⟨S1700000, .f32⟩ : BufTy).Contents (Elt F) → (⟨S1700000, .f32⟩ : BufTy).Contents (Elt F)),
    unary main_v82 main_v83 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v84 (broadcastInDim S1700000 ![] bcast_S_S1700000 : (⟨S_, .i32⟩ : BufTy).Contents (Elt F) → (⟨S1700000, .i32⟩ : BufTy).Contents (Elt F)),
    binary main_v54 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v86 (broadcastInDim S1700000 ![] bcast_S_S1700000 : (⟨S_, .i32⟩ : BufTy).Contents (Elt F) → (⟨S1700000, .i32⟩ : BufTy).Contents (Elt F)),
    binary main_v54 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v54 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v50 main_v89 main_v90 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    binary main_v83 main_v90 main_v91 (mulf : (⟨S1700000x1, .f32⟩ : BufTy).Contents (Elt F) → (⟨S1700000x1, .f32⟩ : BufTy).Contents (Elt F) → (⟨S1700000x1, .f32⟩ : BufTy).Contents (Elt F)),
    nullary main_cst_19 (constant S_ .f32 0x00000000#32),
    unary main_cst_19 main_v92 (broadcastInDim S100000x1 ![] bcast_S_S100000x1 : (⟨S_, .f32⟩ : BufTy).Contents (Elt F) → (⟨S100000x1, .f32⟩ : BufTy).Contents (Elt F)),
    unary main_v57 main_v93 (broadcastInDim S1700000x1 ![0] bcast_S1700000_S1700000x1_0 : (⟨S1700000, .i32⟩ : BufTy).Contents (Elt F) → (⟨S1700000x1, .i32⟩ : BufTy).Contents (Elt F)),
    ternary main_v92 main_v93 main_v91 main_v94 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    unary main_arg6 main_v95 (broadcastInDim S1x1 ![1] bcast_S1_S1x1_1 : (⟨S1, .f32⟩ : BufTy).Contents (Elt F) → (⟨S1x1, .f32⟩ : BufTy).Contents (Elt F)),
    unary main_v95 main_v96 (broadcastInDim S100000x1 ![0, 1] bcast_S1x1_S100000x1_0_1 : (⟨S1x1, .f32⟩ : BufTy).Contents (Elt F) → (⟨S100000x1, .f32⟩ : BufTy).Contents (Elt F)),
    binary main_v94 main_v96 main_v97 (addf : (⟨S100000x1, .f32⟩ : BufTy).Contents (Elt F) → (⟨S100000x1, .f32⟩ : BufTy).Contents (Elt F) → (⟨S100000x1, .f32⟩ : BufTy).Contents (Elt F)) ]

/-- The last statements: the logistic function, one over one plus the exponential of the negated input. -/
abbrev ops2 : List (HloOp τ sig (Elt F)) :=
  [ unary main_v97 main_v98 (Host.negf : (⟨S100000x1, .f32⟩ : BufTy).Contents (Elt F) → (⟨S100000x1, .f32⟩ : BufTy).Contents (Elt F)),
    unary main_v98 main_v99 (Host.exp : (⟨S100000x1, .f32⟩ : BufTy).Contents (Elt F) → (⟨S100000x1, .f32⟩ : BufTy).Contents (Elt F)),
    nullary main_cst_20 (constant S_ .f32 0x3F800000#32),
    unary main_cst_20 main_v100 (broadcastInDim S100000x1 ![] bcast_S_S100000x1 : (⟨S_, .f32⟩ : BufTy).Contents (Elt F) → (⟨S100000x1, .f32⟩ : BufTy).Contents (Elt F)),
    binary main_v100 main_v99 main_v101 (addf : (⟨S100000x1, .f32⟩ : BufTy).Contents (Elt F) → (⟨S100000x1, .f32⟩ : BufTy).Contents (Elt F) → (⟨S100000x1, .f32⟩ : BufTy).Contents (Elt F)),
    nullary main_cst_21 (constant S_ .f32 0x3F800000#32),
    unary main_cst_21 main_v102 (broadcastInDim S100000x1 ![] bcast_S_S100000x1 : (⟨S_, .f32⟩ : BufTy).Contents (Elt F) → (⟨S100000x1, .f32⟩ : BufTy).Contents (Elt F)),
    binary main_v102 main_v101 main_v103 (Host.divf : (⟨S100000x1, .f32⟩ : BufTy).Contents (Elt F) → (⟨S100000x1, .f32⟩ : BufTy).Contents (Elt F) → (⟨S100000x1, .f32⟩ : BufTy).Contents (Elt F)) ]

/-- @main as one list, in program order. -/
abbrev ops : List (HloOp τ sig (Elt F)) := ops0 ++ ops1 ++ ops2

-- the binds of a sixty-statement window are re-associated one per statement
set_option maxRecDepth 4096 in
set_option maxHeartbeats 4000000 in
theorem part0_eq (c : Dev nD) : main_part0 (F := F) c = seq ops0 := by
  simp only [main_part0, fn_where.body, seq, bind_assoc, pure_bind]
  rfl

set_option maxRecDepth 4096 in
set_option maxHeartbeats 4000000 in
theorem part1_eq (c : Dev nD) : main_part1 (F := F) c = seq ops1 := by
  simp only [main_part1, fn_elu.body, fn_where.body, fn_where_0.body, fn_where_1.body, seq, bind_assoc, pure_bind]
  rfl

set_option maxRecDepth 4096 in
theorem part2_eq (c : Dev nD) : main_part2 (F := F) c = seq ops2 := by
  simp only [main_part2, seq, bind_assoc, pure_bind]

/-- @main is that straight line: its three windows run in order are the three lists appended. -/
theorem main_eq (c : Dev nD) : main (F := F) c = seq ops := by
  rw [show (ops : List (HloOp τ sig (Elt F))) = ops0 ++ ops1 ++ ops2 from rfl, seq_append, seq_append,
    ← part0_eq c, ← part1_eq c, ← part2_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., nullary_bufs_sub .., unary_bufs_sub .., reshape_bufs_sub .., binary_bufs_sub .., unary_bufs_sub ..,
    reshape_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., nullary_bufs_sub .., unary_bufs_sub ..,
    reshape_bufs_sub .., binary_bufs_sub .., unary_bufs_sub .., reshape_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., unary_bufs_sub ..,
    ternary_bufs_sub .., unary_bufs_sub .., unary_bufs_sub .., binary_bufs_sub ..⟩

theorem ops2_sub : (ops2 : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub ..⟩

theorem ops_sub : (ops : List (HloOp τ sig (Elt F))).Forall fun op => op.bufs ⊆ tcRefs τ sig :=
  List.forall_append.mpr ⟨List.forall_append.mpr ⟨ops0_sub, ops1_sub⟩, ops2_sub⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages -/

/-- The source node of every edge with the self loops appended: row 0 of the edge list, then 0, 1, 2, … -/
def rowOf (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iotaInDim S100000 32 0⟩]
    concatenates_S1600000_S100000_S1700000_d0

/-- The target node of every edge with the self loops appended: row 1 of the edge list, then 0, 1, 2, … -/
def colOf (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
     ⟨S100000, iotaInDim S100000 32 0⟩]
    concatenates_S1600000_S100000_S1700000_d0

/-- A negative node index counted from the end: r + 100000 where r < 0, else r. -/
def wrap (r : IVec S1700000 32) : IVec S1700000 32 :=
  select (cmpi .slt r (broadcastInDim S1700000 ![] bcast_S_S1700000 (constantI S_ 32 0#32)))
    (addi r (broadcastInDim S1700000 ![] bcast_S_S1700000 (constantI S_ 32 100000#32))) r

/-- An index vector as a one-column array of indices. -/
def col2 (r : IVec S1700000 32) : IVec S1700000x1 32 :=
  broadcastInDim S1700000x1 ![0] bcast_S1700000_S1700000x1_0 r

/-- The edge weights with weight one appended for every self loop. -/
def ewOf (w : FVec F S1600000 .f32) : FVec F S1700000 .f32 :=
  concatenate S1700000 0
    [⟨S1600000, w⟩,
     ⟨S100000, broadcastInDim S100000 ![] bcast_S_S100000 (constant S_ .f32 0x3F800000#32)⟩]
    concatenates_S1600000_S100000_S1700000_d0

/-- The degree of every node: the sum of the weights of the edges arriving at it, added into zero. -/
def degOf (ei : IVec S2x1600000 32) (w : FVec F S1600000 .f32) : FVec F S100000 .f32 :=
  Host.scatterAdd scatter_S100000_S1700000x1_S1700000_n_0_0_1
    (broadcastInDim S100000 ![] bcast_S_S100000 (constant S_ .f32 0x00000000#32))
    (col2 (colOf ei)) (ewOf w)

/-- The inverse square root of the degree where the degree is greater than zero, else zero. -/
def dinvOf (ei : IVec S2x1600000 32) (w : FVec F S1600000 .f32) : FVec F S100000 .f32 :=
  select (cmpf .ogt (degOf ei w) (broadcastInDim S100000 ![] bcast_S_S100000 (constant S_ .f32 0x00000000#32)))
    (Host.rsqrt (degOf ei w))
    (broadcastInDim S100000 ![] bcast_S_S100000 (id (constant S_ .f32 0x00000000#32)))

/-- The normalised weight of every edge: dinv at its source, times its weight, times dinv at its target. -/
def normOf (ei : IVec S2x1600000 32) (w : FVec F S1600000 .f32) : FVec F S1700000 .f32 :=
  mulf
    (mulf (Host.gather gather_S100000_S1700000x1_S1700000_n_0_n_n_0_1_1 (dinvOf ei w) (col2 (wrap (rowOf ei)))) (ewOf w))
    (Host.gather gather_S100000_S1700000x1_S1700000_n_0_n_n_0_1_1 (dinvOf ei w) (col2 (wrap (colOf ei))))

/-- The weighted neighbour sum of a 128-column array: for every edge the source's row of y times the edge's
    normalised weight, added into zero at the edge's target. -/
def agg128 (y : FVec F S100000x128 .f32) (ei : IVec S2x1600000 32) (w : FVec F S1600000 .f32) : FVec F S100000x128 .f32 :=
  Host.scatterAdd scatter_S100000x128_S1700000x1_S1700000x128_1_0_0_1
    (broadcastInDim S100000x128 ![] bcast_S_S100000x128 (constant S_ .f32 0x00000000#32))
    (col2 (colOf ei))
    (mulf
      (broadcastInDim S1700000x128 ![0, 1] bcast_S1700000x1_S1700000x128_0_1
        (broadcastInDim S1700000x1 ![0] bcast_S1700000_S1700000x1_0 (normOf ei w)))
      (Host.gather gather_S100000x128_S1700000x1_S1700000x128_1_0_n_n_0_1_1128 y (col2 (wrap (rowOf ei)))))

/-- The same sum for a one-column array. -/
def agg1 (y : FVec F S100000x1 .f32) (ei : IVec S2x1600000 32) (w : FVec F S1600000 .f32) : FVec F S100000x1 .f32 :=
  Host.scatterAdd scatter_S100000x1_S1700000x1_S1700000x1_1_0_0_1
    (broadcastInDim S100000x1 ![] bcast_S_S100000x1 (constant S_ .f32 0x00000000#32))
    (col2 (colOf ei))
    (mulf
      (broadcastInDim S1700000x1 ![0] bcast_S1700000_S1700000x1_0 (normOf ei w))
      (Host.gather gather_S100000x1_S1700000x1_S1700000x1_1_0_n_n_0_1_11 y (col2 (wrap (rowOf ei)))))

/-- The first dense product, x times W. -/
def lin1 (x : FVec F S100000x128 .f32) (W : FVec F S128x128 .f32) : FVec F S100000x128 .f32 :=
  Host.dotGeneral dot_S100000x128_S128x128_S100000x128_1_0_0_1_n_n none x W

/-- The second dense product, h times W. -/
def lin2 (h : FVec F S100000x128 .f32) (W : FVec F S128x1 .f32) : FVec F S100000x1 .f32 :=
  Host.dotGeneral dot_S100000x128_S128x1_S100000x1_1_0_0_1_n_n none h W

/-- A bias vector added to every row of a 128-column array. -/
def bias128 (a : FVec F S100000x128 .f32) (b : FVec F S128 .f32) : FVec F S100000x128 .f32 :=
  addf a (broadcastInDim S100000x128 ![0, 1] bcast_S1x128_S100000x128_0_1 (broadcastInDim S1x128 ![1] bcast_S128_S1x128_1 b))

/-- A one-element bias added to every row of a one-column array. -/
def bias1 (a : FVec F S100000x1 .f32) (b : FVec F S1 .f32) : FVec F S100000x1 .f32 :=
  addf a (broadcastInDim S100000x1 ![0, 1] bcast_S1x1_S100000x1_0_1 (broadcastInDim S1x1 ![1] bcast_S1_S1x1_1 b))

/-- ELU as the reference spells it: z where z > 0, else one times expm1 of (zero where z > 0, else z). -/
def eluR (z : FVec F S100000x128 .f32) : FVec F S100000x128 .f32 :=
  select (cmpf .ogt z (broadcastInDim S100000x128 ![] bcast_S_S100000x128 (constant S_ .f32 0x00000000#32))) z
    (mulf (broadcastInDim S100000x128 ![] bcast_S_S100000x128 (constant S_ .f32 0x3F800000#32))
      (Host.expm1
        (select (cmpf .ogt z (broadcastInDim S100000x128 ![] bcast_S_S100000x128 (constant S_ .f32 0x00000000#32)))
          (broadcastInDim S100000x128 ![] bcast_S_S100000x128 (id (constant S_ .f32 0x00000000#32))) z)))

/-- The logistic function as the reference spells it: one over (one plus the exponential of the negated input). -/
def sigR (z : FVec F S100000x1 .f32) : FVec F S100000x1 .f32 :=
  Host.divf (broadcastInDim S100000x1 ![] bcast_S_S100000x1 (constant S_ .f32 0x3F800000#32))
    (addf (broadcastInDim S100000x1 ![] bcast_S_S100000x1 (constant S_ .f32 0x3F800000#32)) (Host.exp (Host.negf z)))

/-- The first layer's output, the embedding. -/
def embR (x : FVec F S100000x128 .f32) (ei : IVec S2x1600000 32) (w : FVec F S1600000 .f32)
    (W1 : FVec F S128x128 .f32) (b1 : FVec F S128 .f32) : FVec F S100000x128 .f32 :=
  eluR (bias128 (agg128 (lin1 x W1) ei w) b1)

/-- The second layer's output. -/
def outR (x : FVec F S100000x128 .f32) (ei : IVec S2x1600000 32) (w : FVec F S1600000 .f32)
    (W1 : FVec F S128x128 .f32) (b1 : FVec F S128 .f32) (W2 : FVec F S128x1 .f32) (b2 : FVec F S1 .f32) :
    FVec F S100000x1 .f32 :=
  sigR (bias1 (agg1 (lin2 (embR x ei w W1 b1) W2) ei w) b2)

/-! ## The values, window by window, from any contents -/

/-- The fold of two lists appended is the second's fold of the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

section Windows

attribute [local irreducible] Host.gather Host.scatterAdd concatenate

set_option maxRecDepth 16384 in
set_option maxHeartbeats 4000000 in
/-- After the first window the biased neighbour sum of the first layer stands at its buffer. -/
theorem w0_v48 (W : Valuation τ sig (Elt F)) :
    after ops0 W (main_v48 : DevRef τ sig)
      = bias128 (agg128 (lin1 (W (main_arg0 : DevRef τ sig)) (W (main_arg3 : DevRef τ sig)))
          (W (main_arg1 : DevRef τ sig)) (W (main_arg2 : DevRef τ sig))) (W (main_arg4 : DevRef τ sig)) := by
  simp only [after_cons, after_nil]
  rfl

theorem w0_arg0 (W : Valuation τ sig (Elt F)) :
    after ops0 W (main_arg0 : DevRef τ sig) = W (main_arg0 : DevRef τ sig) := by
  simp only [after_cons, after_nil]
  rfl

theorem w0_arg1 (W : Valuation τ sig (Elt F)) :
    after ops0 W (main_arg1 : DevRef τ sig) = W (main_arg1 : DevRef τ sig) := by
  simp only [after_cons, after_nil]
  rfl

theorem w0_arg2 (W : Valuation τ sig (Elt F)) :
    after ops0 W (main_arg2 : DevRef τ sig) = W (main_arg2 : DevRef τ sig) := by
  simp only [after_cons, after_nil]
  rfl

theorem w0_arg3 (W : Valuation τ sig (Elt F)) :
    after ops0 W (main_arg3 : DevRef τ sig) = W (main_arg3 : DevRef τ sig) := by
  simp only [after_cons, after_nil]
  rfl

theorem w0_arg4 (W : Valuation τ sig (Elt F)) :
    after ops0 W (main_arg4 : DevRef τ sig) = W (main_arg4 : DevRef τ sig) := by
  simp only [after_cons, after_nil]
  rfl

theorem w0_arg5 (W : Valuation τ sig (Elt F)) :
    after ops0 W (main_arg5 : DevRef τ sig) = W (main_arg5 : DevRef τ sig) := by
  simp only [after_cons, after_nil]
  rfl

theorem w0_arg6 (W : Valuation τ sig (Elt F)) :
    after ops0 W (main_arg6 : DevRef τ sig) = W (main_arg6 : DevRef τ sig) := by
  simp only [after_cons, after_nil]
  rfl

set_option maxRecDepth 16384 in
set_option maxHeartbeats 4000000 in
/-- The second window's first statement is the ELU of what the first window left. -/
theorem w1_v49 (W : Valuation τ sig (Elt F)) :
    after ops1 W (main_v49 : DevRef τ sig) = eluR (W (main_v48 : DevRef τ sig)) := by
  simp only [after_cons, after_nil]
  rfl

set_option maxRecDepth 16384 in
set_option maxHeartbeats 4000000 in
/-- After the second window the biased neighbour sum of the second layer stands at its buffer. -/
theorem w1_v97 (W : Valuation τ sig (Elt F)) :
    after ops1 W (main_v97 : DevRef τ sig)
      = bias1 (agg1 (lin2 (eluR (W (main_v48 : DevRef τ sig))) (W (main_arg5 : DevRef τ sig)))
          (W (main_arg1 : DevRef τ sig)) (W (main_arg2 : DevRef τ sig))) (W (main_arg6 : DevRef τ sig)) := by
  simp only [after_cons, after_nil]
  rfl

theorem w1_arg0 (W : Valuation τ sig (Elt F)) :
    after ops1 W (main_arg0 : DevRef τ sig) = W (main_arg0 : DevRef τ sig) := by
  simp only [after_cons, after_nil]
  rfl

theorem w1_arg1 (W : Valuation τ sig (Elt F)) :
    after ops1 W (main_arg1 : DevRef τ sig) = W (main_arg1 : DevRef τ sig) := by
  simp only [after_cons, after_nil]
  rfl

theorem w1_arg2 (W : Valuation τ sig (Elt F)) :
    after ops1 W (main_arg2 : DevRef τ sig) = W (main_arg2 : DevRef τ sig) := by
  simp only [after_cons, after_nil]
  rfl

theorem w1_arg3 (W : Valuation τ sig (Elt F)) :
    after ops1 W (main_arg3 : DevRef τ sig) = W (main_arg3 : DevRef τ sig) := by
  simp only [after_cons, after_nil]
  rfl

theorem w1_arg4 (W : Valuation τ sig (Elt F)) :
    after ops1 W (main_arg4 : DevRef τ sig) = W (main_arg4 : DevRef τ sig) := by
  simp only [after_cons, after_nil]
  rfl

theorem w1_arg5 (W : Valuation τ sig (Elt F)) :
    after ops1 W (main_arg5 : DevRef τ sig) = W (main_arg5 : DevRef τ sig) := by
  simp only [after_cons, after_nil]
  rfl

theorem w1_arg6 (W : Valuation τ sig (Elt F)) :
    after ops1 W (main_arg6 : DevRef τ sig) = W (main_arg6 : DevRef τ sig) := by
  simp only [after_cons, after_nil]
  rfl

theorem w2_v103 (W : Valuation τ sig (Elt F)) :
    after ops2 W (main_v103 : DevRef τ sig) = sigR (W (main_v97 : DevRef τ sig)) := by
  simp only [after_cons, after_nil]
  rfl

theorem w2_v49 (W : Valuation τ sig (Elt F)) :
    after ops2 W (main_v49 : DevRef τ sig) = W (main_v49 : DevRef τ sig) := by
  simp only [after_cons, after_nil]
  rfl

theorem w2_arg0 (W : Valuation τ sig (Elt F)) :
    after ops2 W (main_arg0 : DevRef τ sig) = W (main_arg0 : DevRef τ sig) := by
  simp only [after_cons, after_nil]
  rfl

theorem w2_arg1 (W : Valuation τ sig (Elt F)) :
    after ops2 W (main_arg1 : DevRef τ sig) = W (main_arg1 : DevRef τ sig) := by
  simp only [after_cons, after_nil]
  rfl

theorem w2_arg2 (W : Valuation τ sig (Elt F)) :
    after ops2 W (main_arg2 : DevRef τ sig) = W (main_arg2 : DevRef τ sig) := by
  simp only [after_cons, after_nil]
  rfl

theorem w2_arg3 (W : Valuation τ sig (Elt F)) :
    after ops2 W (main_arg3 : DevRef τ sig) = W (main_arg3 : DevRef τ sig) := by
  simp only [after_cons, after_nil]
  rfl

theorem w2_arg4 (W : Valuation τ sig (Elt F)) :
    after ops2 W (main_arg4 : DevRef τ sig) = W (main_arg4 : DevRef τ sig) := by
  simp only [after_cons, after_nil]
  rfl

theorem w2_arg5 (W : Valuation τ sig (Elt F)) :
    after ops2 W (main_arg5 : DevRef τ sig) = W (main_arg5 : DevRef τ sig) := by
  simp only [after_cons, after_nil]
  rfl

theorem w2_arg6 (W : Valuation τ sig (Elt F)) :
    after ops2 W (main_arg6 : DevRef τ sig) = W (main_arg6 : DevRef τ sig) := by
  simp only [after_cons, after_nil]
  rfl

end Windows

/-! ## The values of the whole run -/

theorem after_ops (V : Valuation τ sig (Elt F)) : after ops V = after ops2 (after ops1 (after ops0 V)) := by
  rw [show (ops : List (HloOp τ sig (Elt F))) = ops0 ++ ops1 ++ ops2 from rfl, after_app, after_app]

/-- The embedding result is the first layer's stages composed, of the arguments' launch contents. -/
theorem emb_eq (V : Valuation τ sig (Elt F)) :
    after ops V (main_v49 : DevRef τ sig)
      = embR (V (main_arg0 : DevRef τ sig)) (V (main_arg1 : DevRef τ sig)) (V (main_arg2 : DevRef τ sig))
          (V (main_arg3 : DevRef τ sig)) (V (main_arg4 : DevRef τ sig)) := by
  rw [after_ops, w2_v49, w1_v49, w0_v48]
  rfl

/-- The output result is both layers' stages composed, of the arguments' launch contents. -/
theorem out_eq (V : Valuation τ sig (Elt F)) :
    after ops V (main_v103 : DevRef τ sig)
      = outR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [after_ops, w2_v103, w1_v97, w0_v48, w0_arg1, w0_arg2, w0_arg5, w0_arg6]
  rfl

theorem arg0_eq (V : Valuation τ sig (Elt F)) :
    after ops V (main_arg0 : DevRef τ sig) = V (main_arg0 : DevRef τ sig) := by
  rw [after_ops, w2_arg0, w1_arg0, w0_arg0]

theorem arg1_eq (V : Valuation τ sig (Elt F)) :
    after ops V (main_arg1 : DevRef τ sig) = V (main_arg1 : DevRef τ sig) := by
  rw [after_ops, w2_arg1, w1_arg1, w0_arg1]

theorem arg2_eq (V : Valuation τ sig (Elt F)) :
    after ops V (main_arg2 : DevRef τ sig) = V (main_arg2 : DevRef τ sig) := by
  rw [after_ops, w2_arg2, w1_arg2, w0_arg2]

theorem arg3_eq (V : Valuation τ sig (Elt F)) :
    after ops V (main_arg3 : DevRef τ sig) = V (main_arg3 : DevRef τ sig) := by
  rw [after_ops, w2_arg3, w1_arg3, w0_arg3]

theorem arg4_eq (V : Valuation τ sig (Elt F)) :
    after ops V (main_arg4 : DevRef τ sig) = V (main_arg4 : DevRef τ sig) := by
  rw [after_ops, w2_arg4, w1_arg4, w0_arg4]

theorem arg5_eq (V : Valuation τ sig (Elt F)) :
    after ops V (main_arg5 : DevRef τ sig) = V (main_arg5 : DevRef τ sig) := by
  rw [after_ops, w2_arg5, w1_arg5, w0_arg5]

theorem arg6_eq (V : Valuation τ sig (Elt F)) :
    after ops V (main_arg6 : DevRef τ sig) = V (main_arg6 : DevRef τ sig) := by
  rw [after_ops, w2_arg6, w1_arg6, w0_arg6]

end Cert.ReferenceIdeal.RefRun

end
-- ==== Proof.RefDot.lean ====
/-
  The reference's two dense layers, read as matrix products.

  Each is one host dot product contracting the left operand's column axis with the right operand's row axis,
  with no batch axis. At the extended reals the host's dot product at an index is the plain sum, over the inner
  index k, of the left entry (row, k) times the right entry (k, column): the matrix product of the two operands.
-/
import proofs.«160689_j1786706395262_1_alg».proof.ReferenceIdeal
import proofs.«160689_j1786706395262_1_alg».proof.Proof.Gen.ReferenceIdeal
import proofs.«160689_j1786706395262_1_alg».proof.Proof.Spec
import proofs.«160689_j1786706395262_1_alg».proof.Proof.LibPlainDot

noncomputable section

namespace Cert.ReferenceIdeal.RefDot

open Cert.ReferenceIdeal Cert.ReferenceIdeal.Gen Idealize.ShloMosaic Idealize.ShloMosaic.ValueIdx

/-- The first layer's contraction record is the plain rows-by-columns contraction. -/
theorem dims1 : dot_S100000x128_S128x128_S100000x128_1_0_0_1_n_n = DotDims.plain 100000 128 128 := rfl

/-- The second layer's contraction record is the plain rows-by-columns contraction. -/
theorem dims2 : dot_S100000x128_S128x1_S100000x1_1_0_0_1_n_n = DotDims.plain 100000 128 1 := rfl

/-- The first dense layer of the reference: the matrix product of the features and the first weights. -/
theorem lin1_eq (x : FVec Ideal S100000x128 .f32) (W : FVec Ideal S128x128 .f32) :
    Host.dotGeneral dot_S100000x128_S128x128_S100000x128_1_0_0_1_n_n none x W
      = Cert.Gcn.matProd (M := 100000) (K := 128) (N := 128) x W := by
  funext j
  rw [dims1]
  show FloatOps.dotGeneral (DotDims.plain 100000 128 128) none _ x W j = _
  exact Cert.PlainDot.dotGeneral_apply none _ x W j

/-- The second dense layer of the reference: the matrix product of the hidden rows and the second weights. -/
theorem lin2_eq (h : FVec Ideal S100000x128 .f32) (W : FVec Ideal S128x1 .f32) :
    Host.dotGeneral dot_S100000x128_S128x1_S100000x1_1_0_0_1_n_n none h W
      = Cert.Gcn.matProd (M := 100000) (K := 128) (N := 1) h W := by
  funext j
  rw [dims2]
  show FloatOps.dotGeneral (DotDims.plain 100000 128 1) none _ h W j = _
  exact Cert.PlainDot.dotGeneral_apply none _ h W j

end Cert.ReferenceIdeal.RefDot

end
-- ==== Proof.RefAct.lean ====
import proofs.«160689_j1786706395262_1_alg».proof.ReferenceIdeal
import proofs.«160689_j1786706395262_1_alg».proof.Proof.Gen.ReferenceIdeal
import proofs.«160689_j1786706395262_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.IdealHost

noncomputable section

namespace Cert.ReferenceIdeal.RefAct

open Cert.ReferenceIdeal Cert.ReferenceIdeal.Facts₀ Idealize.ShloMosaic Idealize.ShloMosaic.ValueIdx

/-! ## The two activations as the reference writes them -/

section Terms
variable {F : FTy → Type} [FloatOps F]

/-- A vector of 128 entries laid as one row, the row repeated down 100000 rows, added to the array. -/
def biasRows128 (a : FVec F S100000x128 .f32) (b : FVec F S128 .f32) : FVec F S100000x128 .f32 :=
  addf a (broadcastInDim S100000x128 ![0, 1] bcast_S1x128_S100000x128_0_1 (broadcastInDim S1x128 ![1] bcast_S128_S1x128_1 b))

/-- A vector of one entry laid as one row, the row repeated down 100000 rows, added to the array. -/
def biasRows1 (a : FVec F S100000x1 .f32) (b : FVec F S1 .f32) : FVec F S100000x1 .f32 :=
  addf a (broadcastInDim S100000x1 ![0, 1] bcast_S1x1_S100000x1_0_1 (broadcastInDim S1x1 ![1] bcast_S1_S1x1_1 b))

/-- ELU as the reference writes it: where z > 0 take z, elsewhere one times expm1 of (zero where z > 0, else z). -/
def eluTerm (z : FVec F S100000x128 .f32) : FVec F S100000x128 .f32 :=
  select (cmpf .ogt z (broadcastInDim S100000x128 ![] bcast_S_S100000x128 (constant (F := F) S_ .f32 0x00000000#32))) z
    (mulf (broadcastInDim S100000x128 ![] bcast_S_S100000x128 (constant (F := F) S_ .f32 0x3F800000#32))
      (Host.expm1 (select (cmpf .ogt z (broadcastInDim S100000x128 ![] bcast_S_S100000x128 (constant (F := F) S_ .f32 0x00000000#32)))
        (broadcastInDim S100000x128 ![] bcast_S_S100000x128 (id (constant (F := F) S_ .f32 0x00000000#32))) z)))

/-- The logistic function as the reference writes it: one over one plus the exponential of the negated value. -/
def sigTerm (z : FVec F S100000x1 .f32) : FVec F S100000x1 .f32 :=
  Host.divf (broadcastInDim S100000x1 ![] bcast_S_S100000x1 (constant (F := F) S_ .f32 0x3F800000#32))
    (addf (broadcastInDim S100000x1 ![] bcast_S_S100000x1 (constant (F := F) S_ .f32 0x3F800000#32)) (Host.exp (Host.negf z)))

/-- ELU's term at one entry: only that entry of z enters. -/
theorem eluTerm_apply (z : FVec F S100000x128 .f32) (j : S100000x128.Idx) :
    eluTerm z j
      = Scalar.select (FloatOps.cmpf .ogt (z j) (FloatOps.ofBits (F := F) .f32 0x00000000#32)) (z j)
          (FloatOps.mulf (FloatOps.ofBits (F := F) .f32 0x3F800000#32)
            (FloatOps.hostUnary .expm1
              (Scalar.select (FloatOps.cmpf .ogt (z j) (FloatOps.ofBits (F := F) .f32 0x00000000#32))
                (FloatOps.ofBits (F := F) .f32 0x00000000#32) (z j)))) := rfl

/-- The logistic term at one entry. -/
theorem sigTerm_apply (z : FVec F S100000x1 .f32) (j : S100000x1.Idx) :
    sigTerm z j
      = FloatOps.hostDivf (FloatOps.ofBits (F := F) .f32 0x3F800000#32)
          (FloatOps.addf (FloatOps.ofBits (F := F) .f32 0x3F800000#32) (FloatOps.hostUnary .exp (FloatOps.hostNegf (z j)))) := rfl

end Terms

/-! ## Reading the bias row -/

section Rows
variable {α : Type}

/-- A vector laid as a one-row array, read at column q, is the vector's entry q. -/
theorem oneRow_of_vec_apply {n : Nat} (hd : (⟨1, ![n]⟩ : Shape).BroadcastsInDim ⟨2, ![1, n]⟩ ![1])
    (b : (⟨1, ![n]⟩ : Shape).Idx → α) (q : Fin n) :
    broadcastInDim ⟨2, ![1, n]⟩ ![1] hd b (ix2 (0 : Fin 1) q) = b (ix1 q) :=
  broadcastInDim_apply ![1] hd b (ix2 (0 : Fin 1) q) (ix1 q) fun a => by
    match a with
    | ⟨0, _⟩ =>
      show q.val = if n = 1 then 0 else q.val
      split
      · have := q.isLt; omega
      · rfl

/-- A vector laid along every one of m rows, read at (p, q), is the vector's entry q. -/
theorem rows_of_vec_apply {m n : Nat} (hbc : (⟨2, ![1, n]⟩ : Shape).BroadcastsInDim ⟨2, ![m, n]⟩ ![0, 1])
    (hd : (⟨1, ![n]⟩ : Shape).BroadcastsInDim ⟨2, ![1, n]⟩ ![1]) (b : (⟨1, ![n]⟩ : Shape).Idx → α) (p : Fin m) (q : Fin n) :
    broadcastInDim ⟨2, ![m, n]⟩ ![0, 1] hbc (broadcastInDim ⟨2, ![1, n]⟩ ![1] hd b) (ix2 p q) = b (ix1 q) :=
  (broadcastInDim_oneRow_apply hbc _ p q).trans (oneRow_of_vec_apply hd b q)

end Rows

/-! ## One entry, on the extended reals -/

theorem bit_cases : ∀ c : BitVec 1, c = 0#1 ∨ c = 1#1 := by decide

/-- ELU both ways at one value: where the compare holds both are the value; elsewhere the inner choice is the
    value, expm1 is exp minus one, and one times it is itself. -/
theorem elu_scalar (w : Ideal .f32) :
    Scalar.select (FloatOps.cmpf .ogt w (FloatOps.ofBits (F := Ideal) .f32 0x00000000#32)) w
        (FloatOps.mulf (FloatOps.ofBits (F := Ideal) .f32 0x3F800000#32)
          (FloatOps.hostUnary .expm1
            (Scalar.select (FloatOps.cmpf .ogt w (FloatOps.ofBits (F := Ideal) .f32 0x00000000#32))
              (FloatOps.ofBits (F := Ideal) .f32 0x00000000#32) w)))
      = Cert.Gcn.eluPt w := by
  unfold Cert.Gcn.eluPt
  generalize FloatOps.cmpf .ogt w (FloatOps.ofBits (F := Ideal) .f32 0x00000000#32) = c
  rcases bit_cases c with rfl | rfl
  · show Ideal.ofBits .f32 0x3F800000#32 * (Ideal.exp (w : EReal) - 1) = Ideal.exp (w : EReal) - Ideal.ofBits .f32 0x3F800000#32
    rw [Ideal.ofBits_one_f32, one_mul]
  · rfl

/-- The logistic function both ways at one value: the host's negation is zero minus the value. -/
theorem sig_scalar (w : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf w)))
      = Cert.Gcn.sigPt w := by
  unfold Cert.Gcn.sigPt
  show Ideal.div (Ideal.ofBits .f32 0x3F800000#32) (Ideal.ofBits .f32 0x3F800000#32 + Ideal.exp (-(w : EReal)))
      = Ideal.div (Ideal.ofBits .f32 0x3F800000#32) (Ideal.ofBits .f32 0x3F800000#32 + Ideal.exp (Ideal.ofBits .f32 0x00000000#32 - (w : EReal)))
  rw [Ideal.ofBits_zero_f32, zero_sub]

/-! ## The reference's activations are the specification's -/

/-- The reference's bias-and-ELU is the specification's, for any one-row array holding the bias vector's entries. -/
theorem elu_eq (a : FVec Ideal S100000x128 .f32) (b : FVec Ideal S128 .f32) (r : FVec Ideal S1x128 .f32)
    (hr : ∀ q : Fin 128, r (ix2 (0 : Fin 1) q) = b (ix1 q)) :
    eluTerm (biasRows128 a b) = Cert.Gcn.eluRow (M := 100000) (N := 128) a r := by
  funext j
  obtain ⟨p, q, rfl⟩ : ∃ (p : Fin 100000) (q : Fin 128), j = ix2 p q := ⟨j 0, j 1, eq_ix2 j⟩
  have hz : biasRows128 a b (ix2 p q) = FloatOps.addf (a (ix2 p q)) (r (ix2 (0 : Fin 1) q)) := by
    unfold biasRows128
    show FloatOps.addf (a (ix2 p q)) (broadcastInDim S100000x128 ![0, 1] bcast_S1x128_S100000x128_0_1 (broadcastInDim S1x128 ![1] bcast_S128_S1x128_1 b) (ix2 p q)) = _
    rw [rows_of_vec_apply bcast_S1x128_S100000x128_0_1 bcast_S128_S1x128_1 b p q, hr q]
  rw [eluTerm_apply, hz]
  exact elu_scalar _

/-- The reference's bias-and-logistic is the specification's, for any one-row array holding the bias entry. -/
theorem sig_eq (a : FVec Ideal S100000x1 .f32) (b : FVec Ideal S1 .f32) (r : FVec Ideal S1x1 .f32)
    (hr : ∀ q : Fin 1, r (ix2 (0 : Fin 1) q) = b (ix1 q)) :
    sigTerm (biasRows1 a b) = Cert.Gcn.sigRow (M := 100000) (N := 1) a r := by
  funext j
  obtain ⟨p, q, rfl⟩ : ∃ (p : Fin 100000) (q : Fin 1), j = ix2 p q := ⟨j 0, j 1, eq_ix2 j⟩
  have hz : biasRows1 a b (ix2 p q) = FloatOps.addf (a (ix2 p q)) (r (ix2 (0 : Fin 1) q)) := by
    unfold biasRows1
    show FloatOps.addf (a (ix2 p q)) (broadcastInDim S100000x1 ![0, 1] bcast_S1x1_S100000x1_0_1 (broadcastInDim S1x1 ![1] bcast_S1_S1x1_1 b) (ix2 p q)) = _
    rw [rows_of_vec_apply bcast_S1x1_S100000x1_0_1 bcast_S1_S1x1_1 b p q, hr q]
  rw [sigTerm_apply, hz]
  exact sig_scalar _

end Cert.ReferenceIdeal.RefAct

end
-- ==== Proof.Bridge.lean ====
/-
  The two programs compute one function.

  Stage by stage: the graph preparation and the two aggregations are the same host operations in both programs,
  so they are the same terms; a dense layer is the matrix product on both sides (the kernel's blocks of rows tile
  the product, the reference's dot product is the same sum over the inner index); the first activation is ELU on
  both sides (the reference's exponential-minus-one of the value is the kernel's exponential minus one, and the
  reference's factor one changes nothing); the second is the logistic function written the same way, the
  reference negating where the kernel subtracts from zero. A bias vector cast to one row holds the vector's
  entries. None of these laws needs a finite value.
-/
import proofs.«160689_j1786706395262_1_alg».proof.Proof.KFold
import proofs.«160689_j1786706395262_1_alg».proof.Proof.RefRun
import proofs.«160689_j1786706395262_1_alg».proof.Proof.RefDot
import proofs.«160689_j1786706395262_1_alg».proof.Proof.RefAct
import Idealize.ShloMosaic.Lib.ValueLayout

set_option maxRecDepth 16384

noncomputable section

namespace Cert.Proof.Bridge

open Idealize.ShloMosaic Idealize.ShloMosaic.ValueIdx
open Cert.KernelIdeal (S100000x128 S100000x1 S2x1600000 S1600000 S1700000 S128x128 S128x1 S128 S1 S100000)

/-! ## The shared host stages are the same terms -/

theorem rowOf_eq (ei : IVec S2x1600000 32) : Cert.KernelIdeal.KStages.rowOf ei = Cert.ReferenceIdeal.RefRun.rowOf ei := rfl
theorem colOf_eq (ei : IVec S2x1600000 32) : Cert.KernelIdeal.KStages.colOf ei = Cert.ReferenceIdeal.RefRun.colOf ei := rfl
theorem ewOf_eq (w : FVec Ideal S1600000 .f32) : Cert.KernelIdeal.KStages.ewOf w = Cert.ReferenceIdeal.RefRun.ewOf w := rfl
theorem degOf_eq (ei : IVec S2x1600000 32) (w : FVec Ideal S1600000 .f32) :
    Cert.KernelIdeal.KStages.degOf ei w = Cert.ReferenceIdeal.RefRun.degOf ei w := rfl
theorem dinvOf_eq (ei : IVec S2x1600000 32) (w : FVec Ideal S1600000 .f32) :
    Cert.KernelIdeal.KStages.dinvOf ei w = Cert.ReferenceIdeal.RefRun.dinvOf ei w := rfl
theorem normOf_eq (ei : IVec S2x1600000 32) (w : FVec Ideal S1600000 .f32) :
    Cert.KernelIdeal.KStages.normOf ei w = Cert.ReferenceIdeal.RefRun.normOf ei w := rfl
theorem agg128_eq (y : FVec Ideal S100000x128 .f32) (ei : IVec S2x1600000 32) (w : FVec Ideal S1600000 .f32) :
    Cert.KernelIdeal.KStages.agg128 y ei w = Cert.ReferenceIdeal.RefRun.agg128 y ei w := rfl
theorem agg1_eq (y : FVec Ideal S100000x1 .f32) (ei : IVec S2x1600000 32) (w : FVec Ideal S1600000 .f32) :
    Cert.KernelIdeal.KStages.agg1 y ei w = Cert.ReferenceIdeal.RefRun.agg1 y ei w := rfl

/-! ## A bias vector as one row holds the vector's entries -/

theorem row128_apply (b : FVec Ideal S128 .f32) (q : Fin 128) :
    Cert.KernelIdeal.KStages.row128 b (ix2 (0 : Fin 1) q) = b (ix1 q) :=
  shapeCast_a_1a_apply b _ 0 q

theorem row1_apply (b : FVec Ideal S1 .f32) (q : Fin 1) :
    Cert.KernelIdeal.KStages.row1 b (ix2 (0 : Fin 1) q) = b (ix1 q) :=
  shapeCast_a_1a_apply b _ 0 q

/-! ## The results -/

/-- The first result: both programs compute ELU of the aggregated product `x · W1` plus the bias row. -/
theorem emb_bridge (x : FVec Ideal S100000x128 .f32) (ei : IVec S2x1600000 32) (w : FVec Ideal S1600000 .f32)
    (W1 : FVec Ideal S128x128 .f32) (b1 : FVec Ideal S128 .f32) :
    Cert.KernelIdeal.KFold.embK x ei w W1 b1 = Cert.ReferenceIdeal.RefRun.embR x ei w W1 b1 := by
  unfold Cert.KernelIdeal.KFold.embK Cert.ReferenceIdeal.RefRun.embR
  rw [show Cert.ReferenceIdeal.RefRun.lin1 x W1 = Cert.Gcn.matProd (M := 100000) (K := 128) (N := 128) x W1
    from Cert.ReferenceIdeal.RefDot.lin1_eq x W1]
  rw [← agg128_eq]
  exact (Cert.ReferenceIdeal.RefAct.elu_eq _ b1 (Cert.KernelIdeal.KStages.row128 b1) (row128_apply b1)).symm

/-- The second result: both programs compute the logistic function of the aggregated product of the first result
    with `W2`, plus the bias. -/
theorem out_bridge (x : FVec Ideal S100000x128 .f32) (ei : IVec S2x1600000 32) (w : FVec Ideal S1600000 .f32)
    (W1 : FVec Ideal S128x128 .f32) (b1 : FVec Ideal S128 .f32) (W2 : FVec Ideal S128x1 .f32) (b2 : FVec Ideal S1 .f32) :
    Cert.KernelIdeal.KFold.outK x ei w W1 b1 W2 b2 = Cert.ReferenceIdeal.RefRun.outR x ei w W1 b1 W2 b2 := by
  unfold Cert.KernelIdeal.KFold.outK Cert.ReferenceIdeal.RefRun.outR
  rw [← emb_bridge x ei w W1 b1]
  rw [show Cert.ReferenceIdeal.RefRun.lin2 (Cert.KernelIdeal.KFold.embK x ei w W1 b1) W2
      = Cert.Gcn.matProd (M := 100000) (K := 128) (N := 1) (Cert.KernelIdeal.KFold.embK x ei w W1 b1) W2
    from Cert.ReferenceIdeal.RefDot.lin2_eq _ W2]
  rw [← agg1_eq]
  exact (Cert.ReferenceIdeal.RefAct.sig_eq _ b2 (Cert.KernelIdeal.KStages.row1 b2) (row1_apply b2)).symm

/-! ## From arguments that agree -/

/-- The first result, the reference's at arguments equal to the kernel program's. -/
theorem emb_agree {x x' : FVec Ideal S100000x128 .f32} {ei ei' : IVec S2x1600000 32} {w w' : FVec Ideal S1600000 .f32}
    {W1 W1' : FVec Ideal S128x128 .f32} {b1 b1' : FVec Ideal S128 .f32}
    (h0 : x' = x) (h1 : ei' = ei) (h2 : w' = w) (h3 : W1' = W1) (h4 : b1' = b1) :
    Cert.ReferenceIdeal.RefRun.embR x' ei' w' W1' b1' = Cert.KernelIdeal.KFold.embK x ei w W1 b1 := by
  subst h0 h1 h2 h3 h4
  exact (emb_bridge _ _ _ _ _).symm

/-- The second result, the reference's at arguments equal to the kernel program's. -/
theorem out_agree {x x' : FVec Ideal S100000x128 .f32} {ei ei' : IVec S2x1600000 32} {w w' : FVec Ideal S1600000 .f32}
    {W1 W1' : FVec Ideal S128x128 .f32} {b1 b1' : FVec Ideal S128 .f32} {W2 W2' : FVec Ideal S128x1 .f32} {b2 b2' : FVec Ideal S1 .f32}
    (h0 : x' = x) (h1 : ei' = ei) (h2 : w' = w) (h3 : W1' = W1) (h4 : b1' = b1) (h5 : W2' = W2) (h6 : b2' = b2) :
    Cert.ReferenceIdeal.RefRun.outR x' ei' w' W1' b1' W2' b2' = Cert.KernelIdeal.KFold.outK x ei w W1 b1 W2 b2 := by
  subst h0 h1 h2 h3 h4 h5 h6
  exact (out_bridge _ _ _ _ _ _ _).symm

end Cert.Proof.Bridge

end
-- ==== Proof.lean ====
/-
  A two-layer graph convolution with symmetric normalisation and self-loops, its dense layers and activations in
  four pipelined kernels over blocks of 10000 node rows, against the plain array program.

  Over the extended reals the two programs are one function of the arguments. Both prepare the same edge
  coefficients and aggregate with the same host operations; a dense layer, tiled by rows in the kernel and whole
  in the reference, is the matrix product; the kernel's ELU (the value where positive, else its exponential minus
  one) is the reference's, and so is its logistic function. The kernel program's run names each result at the
  last boundary of its segments, read back stage by stage to the arguments; the reference's run is its
  operations' fold. The three frames are the runs with the results dropped; the idealization rewrote nothing.
-/
import proofs.«160689_j1786706395262_1_alg».proof.Defs
import proofs.«160689_j1786706395262_1_alg».proof.Proof.Gen.Kernel
import proofs.«160689_j1786706395262_1_alg».proof.Proof.Gen.Kernel.Skeleton
import proofs.«160689_j1786706395262_1_alg».proof.Proof.Gen.Kernel.Launch
import proofs.«160689_j1786706395262_1_alg».proof.Proof.Gen.Kernel.Points
import proofs.«160689_j1786706395262_1_alg».proof.Proof.Gen.Kernel.Frame
import proofs.«160689_j1786706395262_1_alg».proof.Proof.Gen.KernelIdeal
import proofs.«160689_j1786706395262_1_alg».proof.Proof.Gen.KernelIdeal.Skeleton
import proofs.«160689_j1786706395262_1_alg».proof.Proof.Gen.KernelIdeal.Launch
import proofs.«160689_j1786706395262_1_alg».proof.Proof.Gen.KernelIdeal.Points
import proofs.«160689_j1786706395262_1_alg».proof.Proof.Gen.KernelIdeal.Frame
import proofs.«160689_j1786706395262_1_alg».proof.Proof.Gen.ReferenceIdeal
import proofs.«160689_j1786706395262_1_alg».proof.Proof.Gen.Pre_finite_inputs
import proofs.«160689_j1786706395262_1_alg».proof.Proof.KRun
import proofs.«160689_j1786706395262_1_alg».proof.Proof.KFold
import proofs.«160689_j1786706395262_1_alg».proof.Proof.RefRun
import proofs.«160689_j1786706395262_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to its operations' fold, which leaves every argument as launched. -/
theorem frame_referenceIdeal : Cert.frame_ReferenceIdeal := fun m' ρ' _ =>
  (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _)⟩)
    (Cert.ReferenceIdeal.RefRun.run_main (F := Ideal) m' ρ')

/-- Both programs end with the same two results: the kernel program's are read back from its last boundary, the
    reference's from its fold, and the two are one function of arguments that agree. -/
theorem algebraic : Cert.algebraic_KernelIdeal_ReferenceIdeal := by
  intro m ρ m' ρ' _ hagree
  refine ⟨fun c => Cert.KernelIdeal.KFold.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.KFold.embK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KFold.W9_v62 m ρ c), (h c).2.1.trans (Cert.KernelIdeal.KFold.W9_v47 m ρ c), (h c).2.2⟩)
      (Cert.KernelIdeal.KRun.run (F := Ideal) m ρ)
  · refine (θ_run Cert.ReferenceIdeal.defs _ _).mono
      (fun _ h c => ⟨((h c Cert.ReferenceIdeal.main_v103).trans (Cert.ReferenceIdeal.RefRun.out_eq _)).trans ?_,
        ((h c Cert.ReferenceIdeal.main_v49).trans (Cert.ReferenceIdeal.RefRun.emb_eq _)).trans ?_,
        (h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _),
        (h c Cert.ReferenceIdeal.main_arg3).trans (Cert.ReferenceIdeal.RefRun.arg3_eq _),
        (h c Cert.ReferenceIdeal.main_arg4).trans (Cert.ReferenceIdeal.RefRun.arg4_eq _),
        (h c Cert.ReferenceIdeal.main_arg5).trans (Cert.ReferenceIdeal.RefRun.arg5_eq _),
        (h c Cert.ReferenceIdeal.main_arg6).trans (Cert.ReferenceIdeal.RefRun.arg6_eq _)⟩)
      (Cert.ReferenceIdeal.RefRun.run_main (F := Ideal) m' ρ')
    · exact Bridge.out_agree (hagree c).1 (hagree c).2.1 (hagree c).2.2.1 (hagree c).2.2.2.1 (hagree c).2.2.2.2.1 (hagree c).2.2.2.2.2.1 (hagree c).2.2.2.2.2.2
    · exact Bridge.emb_agree (hagree c).1 (hagree c).2.1 (hagree c).2.2.1 (hagree c).2.2.2.1 (hagree c).2.2.2.2.1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
